-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S16384x4096 : Shape := ⟨2, ![16384, 4096]⟩
abbrev S8x512x4 : Shape := ⟨3, ![8, 512, 4]⟩
abbrev S8x4096x4096 : Shape := ⟨3, ![8, 4096, 4096]⟩
abbrev S8 : Shape := ⟨1, ![8]⟩
abbrev S4096 : Shape := ⟨1, ![4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S8 : S_.BroadcastsInDim S8 (![] : Fin 0 → Fin S8.rank)
  reducesTo_S8_S_d0 : S8.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S512x4096 .f32) (main_arg1 : FVec F S16384x4096 .f32) (main_arg2 : IVec S8x512x4 32) (main_arg3 : FVec F S8x4096x4096 .f32) (main_arg4 : FVec F S8 .f32) (main_arg5 : FVec F S4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S8x4096x4096 .f32 := Host.absf main_arg3
  let main_cst_2 : FVec F S_ .f32 := constant S_ .f32 0x7F800000#32
  let main_v10 : FVec F S8x4096x4096 .f32 := broadcastInDim S8x4096x4096 ![] bcast_S_S8x4096x4096 main_cst_2
  let main_v11 : IVec S8x4096x4096 1 := cmpf .olt main_v9 main_v10
  let main_c_3 : IVec S_ 1 := constantI S_ 1 1#1
  let main_v12 : IVec S_ 1 := (fun x v => Host.reduce IntOp.andi x v reducesTo_S8x4096x4096_S_d0_1_2 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_v13 main_v16
-- ==== Kernel.lean ====
abbrev S512x4096 : Shape := ⟨2, ![512, 4096]⟩
abbrev S16384x4096 : Shape := ⟨2, ![16384, 4096]⟩
abbrev S8x512x4 : Shape := ⟨3, ![8, 512, 4]⟩
abbrev S8x4096x4096 : Shape := ⟨3, ![8, 4096, 4096]⟩
abbrev S8 : Shape := ⟨1, ![8]⟩
abbrev S4096 : Shape := ⟨1, ![4096]⟩
abbrev S8x512x1 : Shape := ⟨3, ![8, 512, 1]⟩
abbrev S8x512 : Shape := ⟨2, ![8, 512]⟩
abbrev S_ : Shape := ⟨0, ![]⟩
abbrev S8x512x4096 : Shape := ⟨3, ![8, 512, 4096]⟩
abbrev S8x1x1 : Shape := ⟨3, ![8, 1, 1]⟩
abbrev S1x4096 : Shape := ⟨2, ![1, 4096]⟩
abbrev S1x512x4096 : Shape := ⟨3, ![1, 512, 4096]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 62
  | .vmem => 10
  | .smem => 0
  | _ => 0

abbrev bufTy : (tb : Table) → Fin (tcTables nBuf tb) → BufTy
  | .hbm, ⟨0, _⟩ => ⟨S512x4096, .f32⟩
  | .hbm, ⟨1, _⟩ => ⟨S16384x4096, .f32⟩
  | .hbm, ⟨2, _⟩ => ⟨S8x512x4, .i32⟩
  | .hbm, ⟨3, _⟩ => ⟨S8x4096x4096, .f32⟩
  | .hbm, ⟨4, _⟩ => ⟨S8, .f32⟩
  | .hbm, ⟨5, _⟩ => ⟨S4096, .f32⟩
  | .hbm, ⟨6, _⟩ => ⟨S8x512x1, .i32⟩
  | .hbm, ⟨7, _⟩ => ⟨S8x512, .i32⟩
  | .hbm, ⟨8, _⟩ => ⟨S_, .i32⟩
  | .hbm, ⟨9, _⟩ => ⟨S8x512, .i32⟩
  | .hbm, ⟨10, _⟩ => ⟨S8x512, .i1⟩
  | .hbm, ⟨11, _⟩ => ⟨S_, .i32⟩
  | .hbm, ⟨12, _⟩ => ⟨S8x512, .i32⟩
  | .hbm, ⟨13, _⟩ => ⟨S8x512, .i32⟩
  | .hbm, ⟨14, _⟩ => ⟨S8x512, .i32⟩
  | .hbm, ⟨15, _⟩ => ⟨S8x512x1, .i32⟩
  | .hbm, ⟨16, _⟩ => ⟨S8x512x4096, .f32⟩
  | .hbm, ⟨17, _⟩ => ⟨S8x512x1, .i32⟩
  | .hbm, ⟨18, _⟩ => ⟨S8x512, .i32⟩
  | .hbm, ⟨19, _⟩ => ⟨S_, .i32⟩
  | .hbm, ⟨20, _⟩ => ⟨S8x512, .i32⟩
  | .hbm, ⟨21, _⟩ => ⟨S8x512, .i1⟩
  | .hbm, ⟨22, _⟩ => ⟨S_, .i32⟩
  | .hbm, ⟨23, _⟩ => ⟨S8x512, .i32⟩
  | .hbm, ⟨24, _⟩ => ⟨S8x512, .i32⟩
  | .hbm, ⟨25, _⟩ => ⟨S8x512, .i32⟩
  | .hbm, ⟨26, _⟩ => ⟨S8x512x1, .i32⟩
  | .hbm, ⟨27, _⟩ => ⟨S8x512x4096, .f32⟩
  | .hbm, ⟨28, _⟩ => ⟨S8x512x4096, .f32⟩
  | .hbm, ⟨29, _⟩ => ⟨S8x512x1, .i32⟩
  | .hbm, ⟨30, _⟩ => ⟨S8x512, .i32⟩
  | .hbm, ⟨31, _⟩ => ⟨S_, .i32⟩
  | .hbm, ⟨32, _⟩ => ⟨S8x512, .i32⟩
  | .hbm, ⟨33, _⟩ => ⟨S8x512, .i1⟩
  | .hbm, ⟨34, _⟩ => ⟨S_, .i32⟩
  | .hbm, ⟨35, _⟩ => ⟨S8x512, .i32⟩
  | .hbm, ⟨36, _⟩ => ⟨S8x512, .i32⟩
  | .hbm, ⟨37, _⟩ => ⟨S8x512, .i32⟩
  | .hbm, ⟨38, _⟩ => ⟨S8x512x1, .i32⟩
  | .hbm, ⟨39, _⟩ => ⟨S8x512x4096, .f32⟩
  | .hbm, ⟨40, _⟩ => ⟨S8x512x4096, .f32⟩
  | .hbm, ⟨41, _⟩ => ⟨S8x512x1, .i32⟩
  | .hbm, ⟨42, _⟩ => ⟨S8x512, .i32⟩
  | .hbm, ⟨43, _⟩ => ⟨S_, .i32⟩
  | .hbm, ⟨44, _⟩ => ⟨S8x512, .i32⟩
  | .hbm, ⟨45, _⟩ => ⟨S8x512, .i1⟩
  | .hbm, ⟨46, _⟩ => ⟨S_, .i32⟩
  | .hbm, ⟨47, _⟩ => ⟨S8x512, .i32⟩
  | .hbm, ⟨48, _⟩ => ⟨S8x512, .i32⟩
  | .hbm, ⟨49, _⟩ => ⟨S8x512, .i32⟩
  | .hbm, ⟨50, _⟩ => ⟨S8x512x1, .i32⟩
  | .hbm, ⟨51, _⟩ => ⟨S8x512x4096, .f32⟩
  | .hbm, ⟨52, _⟩ => ⟨S8x512x4096, .f32⟩
  | .hbm, ⟨53, _⟩ => ⟨S_, .f32⟩
  | .hbm, ⟨54, _⟩ => ⟨S8x512x4096, .f32⟩
  | .hbm, ⟨55, _⟩ => ⟨S8x512x4096, .f32⟩
  | .hbm, ⟨56, _⟩ => ⟨S8x1x1, .f32⟩
  | .hbm, ⟨57, _⟩ => ⟨S8x512x4096, .f32⟩
  | .hbm, ⟨58, _⟩ => ⟨S8x512x4096, .f32⟩
  | .hbm, ⟨59, _⟩ => ⟨S512x4096, .bf16⟩
  | .hbm, ⟨60, _⟩ => ⟨S1x4096, .f32⟩
  | .hbm, ⟨61, _⟩ => ⟨S512x4096, .f32⟩
  | .local _ .vmem, ⟨0, _⟩ => ⟨S512x4096, .bf16⟩
  | .local _ .vmem, ⟨1, _⟩ => ⟨S1x512x4096, .f32⟩
  | .local _ .vmem, ⟨2, _⟩ => ⟨S1x512x4096, .f32⟩
  | .local _ .vmem, ⟨3, _⟩ => ⟨S1x512x512, .f32⟩
  | .local _ .vmem, ⟨4, _⟩ => ⟨S1x512x512, .f32⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S8x512x4_S8x512x1_0_0_0 : S8x512x4.Slices ![0, 0, 0] S8x512x1
  shapeCasts_S8x512x1_S8x512 : S8x512x1.ShapeCasts S8x512
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  slices_S8x512x4_S8x512x1_0_0_1 : S8x512x4.Slices ![0, 0, 1] S8x512x1
  slices_S8x512x4_S8x512x1_0_0_2 : S8x512x4.Slices ![0, 0, 2] S8x512x1
  slices_S8x512x4_S8x512x1_0_0_3 : S8x512x4.Slices ![0, 0, 3] S8x512x1
  bcast_S_S8x512x4096 : S_.BroadcastsInDim S8x512x4096 (![] : Fin 0 → Fin S8x512x4096.rank)
  bcast_S8_S8x1x1_0 : S8.BroadcastsInDim S8x1x1 (![0] : Fin 1 → Fin S8x1x1.rank)
  bcast_S8x1x1_S8x512x4096_0_1_2 : S8x1x1.BroadcastsInDim S8x512x4096 (![0, 1, 2] : Fin 3 → Fin S8x512x4096.rank)
  bitsLt_bf16_f32 : FTy.bits .bf16 < FTy.bits .f32
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  gather_S16384x4096_S8x512x1_S8x512x4096_2_0_n_n_0_2_14096_wf : GatherDims.WF S16384x4096 S8x512x1 S8x512x4096 [2] [0] [] [0] [] 2 ![1, 4096]
  dot_S512x4096_S512x4096_S512x512_1_1_0_0_n_n_wf : DotDims.WF S512x4096 S512x4096 S512x512 [1] [1] [0] [0] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x4096x4096.size a
  hwx0_1 : ∀ i : grid0.Coords, EltTy.bits .f32 = 32 ∨ (Rect.block (s := S8x4096x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x512x4096.size a
  hwx0_2 : ∀ i : grid0.Coords, EltTy.bits .f32 = 32 ∨ (Rect.block (s := S8x512x4096) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x4096.size a
  hwx0_4 : ∀ i : grid0.Coords, EltTy.bits .f32 = 32 ∨ (Rect.block (s := S512x4096) S512x512.size (cc0_transform_4 i) (hinb0_4 i)).WholeWords (EltTy.packing .f32)

variable [Facts₀]

def gather_S16384x4096_S8x512x1_S8x512x4096_2_0_n_n_0_2_14096 : GatherDims S16384x4096 S8x512x1 S8x512x4096 where
  offsetDims := [2]
  collapsedSliceDims := [0]
  operandBatchingDims := []
  startIndicesBatchingDims := []
  startIndexMap := [0]
  indexVectorDim := 2
  sliceSizes := ![1, 4096]
  wf := gather_S16384x4096_S8x512x1_S8x512x4096_2_0_n_n_0_2_14096_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v44) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x4096 : Shape := ⟨2, ![512, 4096]⟩
abbrev S16384x4096 : Shape := ⟨2, ![16384, 4096]⟩
abbrev S8x512x4 : Shape := ⟨3, ![8, 512, 4]⟩
abbrev S8x4096x4096 : Shape := ⟨3, ![8, 4096, 4096]⟩
abbrev S8 : Shape := ⟨1, ![8]⟩
abbrev S4096 : Shape := ⟨1, ![4096]⟩
abbrev S_ : Shape := ⟨0, ![]⟩
abbrev S8x512x4x1 : Shape := ⟨4, ![8, 512, 4, 1]⟩
abbrev S8x512x4x4096 : Shape := ⟨4, ![8, 512, 4, 4096]⟩
abbrev S8x512x4096 : Shape := ⟨3, ![8, 512, 4096]⟩
abbrev S8x1x1 : Shape := ⟨3, ![8, 1, 1]⟩
abbrev S4096x4096 : Shape := ⟨2, ![4096, 4096]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S16384x4096, .f32⟩
  | .hbm, ⟨2, _⟩ => ⟨S8x512x4, .i32⟩
  | .hbm, ⟨3, _⟩ => ⟨S8x4096x4096, .f32⟩
  | .hbm, ⟨4, _⟩ => ⟨S8, .f32⟩
  | .hbm, ⟨5, _⟩ => ⟨S4096, .f32⟩
  | .hbm, ⟨6, _⟩ => ⟨S_, .i32⟩
  | .hbm, ⟨7, _⟩ => ⟨S8x512x4, .i32⟩
  | .hbm, ⟨8, _⟩ => ⟨S8x512x4, .i1⟩
  | .hbm, ⟨9, _⟩ => ⟨S_, .i32⟩
  | .hbm, ⟨10, _⟩ => ⟨S8x512x4, .i32⟩
  | .hbm, ⟨11, _⟩ => ⟨S8x512x4, .i32⟩
  | .hbm, ⟨12, _⟩ => ⟨S8x512x4, .i32⟩
  | .hbm, ⟨13, _⟩ => ⟨S8x512x4x1, .i32⟩
  | .hbm, ⟨14, _⟩ => ⟨S8x512x4x4096, .f32⟩
  | .hbm, ⟨15, _⟩ => ⟨S_, .f32⟩
  | .hbm, ⟨16, _⟩ => ⟨S8x512x4096, .f32⟩
  | .hbm, ⟨17, _⟩ => ⟨S_, .f32⟩
  | .hbm, ⟨18, _⟩ => ⟨S8x512x4096, .f32⟩
  | .hbm, ⟨19, _⟩ => ⟨S8x512x4096, .f32⟩
  | .hbm, ⟨20, _⟩ => ⟨S8x512x4096, .f32⟩
  | .hbm, ⟨21, _⟩ => ⟨S8x1x1, .f32⟩
  | .hbm, ⟨22, _⟩ => ⟨S8x512x4096, .f32⟩
  | .hbm, ⟨23, _⟩ => ⟨S8x512x4096, .f32⟩
  | .hbm, ⟨24, _⟩ => ⟨S4096x4096, .f32⟩
  | .hbm, ⟨25, _⟩ => ⟨S4096x4096, .f32⟩
  | .hbm, ⟨26, _⟩ => ⟨S512x4096, .f32⟩
  | .hbm, ⟨27, _⟩ => ⟨S1x4096, .f32⟩
  | .hbm, ⟨28, _⟩ => ⟨S512x4096, .f32⟩
  | .hbm, ⟨29, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S8x512x4 : S_.BroadcastsInDim S8x512x4 (![] : Fin 0 → Fin S8x512x4.rank)
  bcast_S8x512x4_S8x512x4x1_0_1_2 : S8x512x4.BroadcastsInDim S8x512x4x1 (![0, 1, 2] : Fin 3 → Fin S8x512x4x1.rank)
  reducesTo_S8x512x4x4096_S8x512x4096_d2 : S8x512x4x4096.ReducesTo [2] S8x512x4096
  h_S_ : 0 < S_.numel
  bcast_S_S8x512x4096 : S_.BroadcastsInDim S8x512x4096 (![] : Fin 0 → Fin S8x512x4096.rank)
  bcast_S8_S8x1x1_0 : S8.BroadcastsInDim S8x1x1 (![0] : Fin 1 → Fin S8x1x1.rank)
  bcast_S8x1x1_S8x512x4096_0_1_2 : S8x1x1.BroadcastsInDim S8x512x4096 (![0, 1, 2] : Fin 3 → Fin S8x512x4096.rank)
  shapeCasts_S8x512x4096_S4096x4096 : S8x512x4096.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  gather_S16384x4096_S8x512x4x1_S8x512x4x4096_3_0_n_n_0_3_14096_wf : GatherDims.WF S16384x4096 S8x512x4x1 S8x512x4x4096 [3] [0] [] [0] [] 3 ![1, 4096]
  dot_S8x512x4096_S8x4096x4096_S8x512x4096_2_1_1_2_0_0_wf : DotDims.WF S8x512x4096 S8x4096x4096 S8x512x4096 [2] [1] [1] [2] [0] [0]
  dot_S512x4096_S4096x4096_S512x4096_1_0_0_1_n_n_wf : DotDims.WF S512x4096 S4096x4096 S512x4096 [1] [0] [0] [1] [] []

variable [Facts₀]

def gather_S16384x4096_S8x512x4x1_S8x512x4x4096_3_0_n_n_0_3_14096 : GatherDims S16384x4096 S8x512x4x1 S8x512x4x4096 where
  offsetDims := [3]
  collapsedSliceDims := [0]
  operandBatchingDims := []
  startIndicesBatchingDims := []
  startIndexMap := [0]
  indexVectorDim := 3
  sliceSizes := ![1, 4096]
  wf := gather_S16384x4096_S8x512x4x1_S8x512x4x4096_3_0_n_n_0_3_14096_wf
def dot_S8x512x4096_S8x4096x4096_S8x512x4096_2_1_1_2_0_0 : DotDims S8x512x4096 S8x4096x4096 S8x512x4096 where
  lhsContracting := [2]
  rhsContracting := [1]
  lhsNonContracting := [1]
  rhsNonContracting := [2]
  lhsBatch := [0]
  rhsBatch := [0]
  wf := dot_S8x512x4096_S8x4096x4096_S8x512x4096_2_1_1_2_0_0_wf
def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf

class Facts : Prop extends Facts₀ where

variable [Facts]
-- ==== Proof.Rows.lean ====
/-
  Rows of a table gathered by start indices, read at an index.

  Both programs read rows of the codeword table `cw : [16384, 4096]` at integer start indices: the kernel
  four times, at `idx[:, :, k]` laid out as `[8, 512, 1]`, each giving `[8, 512, 4096]`; the reference
  once, at `idx` laid out as `[8, 512, 4, 1]`, giving `[8, 512, 4, 4096]`. In both, entry `(…, e)` of the
  result is `cw[row, e]`, where `row` is the start index read as a signed integer and clamped into
  `[0, 16383]` (StableHLO's gather clamps every start index). Before the gather both programs add the
  table's length to a negative index (`wrapNeg`).
-/
import Idealize.ShloMosaic.Lib.ValueIdx

noncomputable section

namespace Cert.Rows

open Idealize.ShloMosaic Idealize.ShloMosaic.ValueIdx

/-- A start index as both programs prepare it: a negative one is moved up by the table's length. -/
def wrapNeg (w : BitVec 32) : BitVec 32 :=
  Scalar.select (IntOp.cmpi .slt w 0#32) (IntOp.addi w 16384#32) w

/-- The table row a prepared start index names: read signed, clamped into the table. -/
def rowOf (w : BitVec 32) : Fin 16384 := ⟨min w.toInt.toNat 16383, by omega⟩

section
variable {α : Type}

/-- Any entry of a one-element list is that element. -/
theorem getElem_of_eq_singleton {β : Type} {l : List β} {x : β} (h : l = [x]) (i : Nat) (hi : i < l.length) : l[i] = x := by
  subst h
  have h0 : i = 0 := by simpa using hi
  subst h0
  rfl

/-- The kernel's gather: start indices `[8, 512, 1]`, result `[8, 512, 4096]`, the row axis collapsed. -/
abbrev dims3 (wf : GatherDims.WF ⟨2, ![16384, 4096]⟩ ⟨3, ![8, 512, 1]⟩ ⟨3, ![8, 512, 4096]⟩ [2] [0] [] [0] [] 2 ![1, 4096]) :
    GatherDims ⟨2, ![16384, 4096]⟩ ⟨3, ![8, 512, 1]⟩ ⟨3, ![8, 512, 4096]⟩ where
  offsetDims := [2]
  collapsedSliceDims := [0]
  operandBatchingDims := []
  startIndicesBatchingDims := []
  startIndexMap := [0]
  indexVectorDim := 2
  sliceSizes := ![1, 4096]
  wf := wf

/-- Entry `(t, r, e)` of the kernel's gather is the table at the row `idx[t, r, 0]` names, column `e`. -/
theorem gather3_apply
    (wf : GatherDims.WF ⟨2, ![16384, 4096]⟩ ⟨3, ![8, 512, 1]⟩ ⟨3, ![8, 512, 4096]⟩ [2] [0] [] [0] [] 2 ![1, 4096])
    (x : (⟨2, ![16384, 4096]⟩ : Shape).Idx → α) (idx : IVec ⟨3, ![8, 512, 1]⟩ 32) (t : Fin 8) (r : Fin 512) (e : Fin 4096) :
    Host.gather (dims3 wf) x idx (ix3 t r e) = x (ix2 (rowOf (idx (ix3 t r 0))) e) := by
  unfold Host.gather
  congr 1
  funext a
  refine Fin.ext ?_
  match a with
  | ⟨0, _⟩ =>
    show (dims3 wf).start (ix3 t r e) idx 0 + (dims3 wf).batchCoord (ix3 t r e) 0 + (dims3 wf).offCoord (ix3 t r e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims3 wf).startIndexMap from List.mem_singleton.mpr rfl)]
    have hsi : (dims3 wf).siIdx (ix3 t r e) ⟨List.idxOf (0 : Fin 2) (dims3 wf).startIndexMap,
        List.idxOf_lt_length_iff.2 (List.mem_singleton.mpr rfl)⟩ = ix3 t r 0 := by
      funext b; refine Fin.ext ?_
      match b with
      | ⟨0, _⟩ => rfl
      | ⟨1, _⟩ => rfl
      | ⟨2, _⟩ => rfl
    rw [hsi]
    rfl
  | ⟨1, _⟩ =>
    show (dims3 wf).start (ix3 t r e) idx 1 + (dims3 wf).batchCoord (ix3 t r e) 1 + (dims3 wf).offCoord (ix3 t r e) 1 = _
    rw [GatherDims.batchCoord_eq_zero _ _ _ List.not_mem_nil]
    unfold GatherDims.start
    rw [dif_neg (show (1 : Fin 2) ∉ ([0] : List (Fin 2)) from by decide)]
    unfold GatherDims.offCoord
    rw [dif_pos ((GatherDims.mem_sKept (dims3 wf) 1).mpr ⟨(show (1 : Fin 2) ∉ ([0] : List (Fin 2)) from by decide), List.not_mem_nil⟩)]
    rw [getElem_of_eq_singleton (show (dims3 wf).offsetDims = [2] from rfl)]
    show 0 + 0 + e.val = e.val
    omega

/-- The reference's gather: start indices `[8, 512, 4, 1]`, result `[8, 512, 4, 4096]`, the row axis collapsed. -/
abbrev dims4 (wf : GatherDims.WF ⟨2, ![16384, 4096]⟩ ⟨4, ![8, 512, 4, 1]⟩ ⟨4, ![8, 512, 4, 4096]⟩ [3] [0] [] [0] [] 3 ![1, 4096]) :
    GatherDims ⟨2, ![16384, 4096]⟩ ⟨4, ![8, 512, 4, 1]⟩ ⟨4, ![8, 512, 4, 4096]⟩ where
  offsetDims := [3]
  collapsedSliceDims := [0]
  operandBatchingDims := []
  startIndicesBatchingDims := []
  startIndexMap := [0]
  indexVectorDim := 3
  sliceSizes := ![1, 4096]
  wf := wf

/-- Entry `(t, r, k, e)` of the reference's gather is the table at the row `idx[t, r, k, 0]` names, column `e`. -/
theorem gather4_apply
    (wf : GatherDims.WF ⟨2, ![16384, 4096]⟩ ⟨4, ![8, 512, 4, 1]⟩ ⟨4, ![8, 512, 4, 4096]⟩ [3] [0] [] [0] [] 3 ![1, 4096])
    (x : (⟨2, ![16384, 4096]⟩ : Shape).Idx → α) (idx : IVec ⟨4, ![8, 512, 4, 1]⟩ 32) (t : Fin 8) (r : Fin 512) (k : Fin 4) (e : Fin 4096) :
    Host.gather (dims4 wf) x idx (ix4 t r k e) = x (ix2 (rowOf (idx (ix4 t r k 0))) e) := by
  unfold Host.gather
  congr 1
  funext a
  refine Fin.ext ?_
  match a with
  | ⟨0, _⟩ =>
    show (dims4 wf).start (ix4 t r k e) idx 0 + (dims4 wf).batchCoord (ix4 t r k e) 0 + (dims4 wf).offCoord (ix4 t r k e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims4 wf).startIndexMap from List.mem_singleton.mpr rfl)]
    have hsi : (dims4 wf).siIdx (ix4 t r k e) ⟨List.idxOf (0 : Fin 2) (dims4 wf).startIndexMap,
        List.idxOf_lt_length_iff.2 (List.mem_singleton.mpr rfl)⟩ = ix4 t r k 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (dims4 wf).start (ix4 t r k e) idx 1 + (dims4 wf).batchCoord (ix4 t r k e) 1 + (dims4 wf).offCoord (ix4 t r k e) 1 = _
    rw [GatherDims.batchCoord_eq_zero _ _ _ List.not_mem_nil]
    unfold GatherDims.start
    rw [dif_neg (show (1 : Fin 2) ∉ ([0] : List (Fin 2)) from by decide)]
    unfold GatherDims.offCoord
    rw [dif_pos ((GatherDims.mem_sKept (dims4 wf) 1).mpr ⟨(show (1 : Fin 2) ∉ ([0] : List (Fin 2)) from by decide), List.not_mem_nil⟩)]
    rw [getElem_of_eq_singleton (show (dims4 wf).offsetDims = [3] from rfl)]
    show 0 + 0 + e.val = e.val
    omega

end

end Cert.Rows

end
-- ==== Proof.KernelDecoded.lean ====
/-
  The decoded rows the kernel's host code prepares, read at an entry.

  Before the region the kernel's @main gathers, for each `k < 4`, the codeword rows at the start indices
  `idx[:, :, k]` (a slice of the index array, reshaped to `[8, 512]`, a negative index moved up by the table's
  length), adds the four gathers in order, multiplies by `0.25` and by the tile's scale (`decoded`). At
  `(t, r, d)` that is

      (((cw[row₀, d] + cw[row₁, d]) + cw[row₂, d]) + cw[row₃, d]) · 0.25 · sc[t],     row_k = row(idx[t, r, k]).
-/
import proofs.«410746_j70274254897207_3_alg».proof.Proof.Gen.KernelIdeal
import proofs.«410746_j70274254897207_3_alg».proof.Proof.Rows
import Idealize.ShloMosaic.Lib.Pipeline.Value
import Idealize.ShloMosaic.PureOps.Ideal.Laws

noncomputable section

namespace Cert.KernelIdeal.Host

open Cert.KernelIdeal Cert.KernelIdeal.Gen
open Idealize.ShloMosaic Idealize.ShloMosaic.TcCoe Idealize.ShloMosaic.ValueIdx Idealize.SL.Sem
open Cert.Rows

variable {F : FTy → Type} [FloatOps F]

/-- Column `k` of the start indices as `[8, 512]`. -/
def startsCol (off : Fin 3 → Nat) (h : S8x512x4.Slices off S8x512x1) (idx : IVec S8x512x4 32) : IVec S8x512 32 :=
  shapeCast _ (extractStridedSlice S8x512x1 off idx h) shapeCasts_S8x512x1_S8x512

/-- The codeword rows at one column of the start indices, as the kernel's host code gathers them. -/
def rowsAt (off : Fin 3 → Nat) (h : S8x512x4.Slices off S8x512x1) (cw : FVec F S16384x4096 .f32) (idx : IVec S8x512x4 32) :
    FVec F S8x512x4096 .f32 :=
  Host.gather gather_S16384x4096_S8x512x1_S8x512x4096_2_0_n_n_0_2_14096 cw
    (broadcastInDim S8x512x1 ![0, 1] bcast_S8x512_S8x512x1_0_1
      (select (cmpi .slt (startsCol off h idx) (broadcastInDim S8x512 ![] bcast_S_S8x512 (constantI S_ 32 0#32)))
        (addi (startsCol off h idx) (broadcastInDim S8x512 ![] bcast_S_S8x512 (constantI S_ 32 16384#32)))
        (startsCol off h idx)))

/-- Window 2's array: the four gathers added in order, times `0.25`, times the tile's scale. -/
def decoded (cw : FVec F S16384x4096 .f32) (idx : IVec S8x512x4 32) (sc : FVec F S8 .f32) : FVec F S8x512x4096 .f32 :=
  mulf (mulf
      (addf (addf (addf (rowsAt ![0, 0, 0] slices_S8x512x4_S8x512x1_0_0_0 cw idx) (rowsAt ![0, 0, 1] slices_S8x512x4_S8x512x1_0_0_1 cw idx))
        (rowsAt ![0, 0, 2] slices_S8x512x4_S8x512x1_0_0_2 cw idx)) (rowsAt ![0, 0, 3] slices_S8x512x4_S8x512x1_0_0_3 cw idx))
      (broadcastInDim S8x512x4096 ![] bcast_S_S8x512x4096 (constant S_ .f32 0x3E800000#32)))
    (broadcastInDim S8x512x4096 ![0, 1, 2] bcast_S8x1x1_S8x512x4096_0_1_2 (broadcastInDim S8x1x1 ![0] bcast_S8_S8x1x1_0 sc))

/-- Column `k` of the start indices at `(t, r)` is `idx[t, r, k]`. -/
theorem startsCol_apply (k : Fin 4) (off : Fin 3 → Nat) (hoff : off = ![0, 0, k.val]) (h : S8x512x4.Slices off S8x512x1)
    (idx : IVec S8x512x4 32) (t : Fin 8) (r : Fin 512) : startsCol off h idx (ix2 t r) = idx (ix3 t r k) := by
  subst hoff
  unfold startsCol
  refine (shapeCast_apply _ shapeCasts_S8x512x1_S8x512 (ix2 t r) (ix3 t r 0)
    (by rewrite [Shape.rowMajor_val_three, Shape.rowMajor_val_two]; show (t.val * 512 + r.val) * 1 + 0 = t.val * 512 + r.val; omega)).trans ?_
  exact extractStridedSlice_apply _ idx h (ix3 t r 0) (ix3 t r k) (fun a => by
    match a with
    | ⟨0, _⟩ => show t.val = 0 + t.val; omega
    | ⟨1, _⟩ => show r.val = 0 + r.val; omega
    | ⟨2, _⟩ => show k.val = k.val + 0; omega)

/-- One gather at `(t, r, d)`: the table at the row start index `k` of `(t, r)` names, column `d`. -/
theorem rowsAt_apply (k : Fin 4) (off : Fin 3 → Nat) (hoff : off = ![0, 0, k.val]) (h : S8x512x4.Slices off S8x512x1)
    (cw : FVec F S16384x4096 .f32) (idx : IVec S8x512x4 32) (t : Fin 8) (r : Fin 512) (d : Fin 4096) :
    rowsAt off h cw idx (ix3 t r d) = cw (ix2 (rowOf (wrapNeg (idx (ix3 t r k)))) d) := by
  unfold rowsAt
  refine (gather3_apply gather_S16384x4096_S8x512x1_S8x512x4096_2_0_n_n_0_2_14096_wf cw _ t r d).trans ?_
  congr 3
  refine (broadcastInDim_apply _ bcast_S8x512_S8x512x1_0_1 _ (ix3 t r 0) (ix2 t r) (fun a => by
    match a with
    | ⟨0, _⟩ => show t.val = if (8 : Nat) = 1 then 0 else t.val; rw [if_neg (by decide)]
    | ⟨1, _⟩ => show r.val = if (512 : Nat) = 1 then 0 else r.val; rw [if_neg (by decide)])).trans ?_
  show Scalar.select (IntOp.cmpi .slt (startsCol off h idx (ix2 t r)) 0#32) (IntOp.addi (startsCol off h idx (ix2 t r)) 16384#32)
    (startsCol off h idx (ix2 t r)) = _
  rw [startsCol_apply k off hoff h idx t r]
  rfl

/-- The decoded rows at `(t, r, d)`, over the extended reals. -/
theorem decoded_apply (cw : FVec Ideal S16384x4096 .f32) (idx : IVec S8x512x4 32) (sc : FVec Ideal S8 .f32)
    (t : Fin 8) (r : Fin 512) (d : Fin 4096) :
    decoded cw idx sc (ix3 t r d)
      = (((cw (ix2 (rowOf (wrapNeg (idx (ix3 t r 0)))) d) + cw (ix2 (rowOf (wrapNeg (idx (ix3 t r 1)))) d))
            + cw (ix2 (rowOf (wrapNeg (idx (ix3 t r 2)))) d)) + cw (ix2 (rowOf (wrapNeg (idx (ix3 t r 3)))) d))
          * Ideal.ofBits .f32 0x3E800000#32 * sc (ix1 t) := by
  have hB : broadcastInDim S8x512x4096 ![] bcast_S_S8x512x4096 (constant (F := Ideal) S_ .f32 0x3E800000#32) (ix3 t r d)
      = Ideal.ofBits .f32 0x3E800000#32 :=
    broadcastInDim_apply _ bcast_S_S8x512x4096 _ (ix3 t r d) ix0 (fun a => a.elim0)
  have hC : broadcastInDim S8x512x4096 ![0, 1, 2] bcast_S8x1x1_S8x512x4096_0_1_2 (broadcastInDim S8x1x1 ![0] bcast_S8_S8x1x1_0 sc) (ix3 t r d)
      = sc (ix1 t) :=
    (broadcastInDim_apply _ bcast_S8x1x1_S8x512x4096_0_1_2 _ (ix3 t r d) (ix3 t 0 0) (fun a => by
      match a with
      | ⟨0, _⟩ => show t.val = if (8 : Nat) = 1 then 0 else t.val; rw [if_neg (by decide)]
      | ⟨1, _⟩ => show 0 = if (1 : Nat) = 1 then 0 else r.val; rw [if_pos rfl]
      | ⟨2, _⟩ => show 0 = if (1 : Nat) = 1 then 0 else d.val; rw [if_pos rfl])).trans
    (broadcastInDim_apply _ bcast_S8_S8x1x1_0 sc (ix3 t 0 0) (ix1 t) (fun a => by
      match a with
      | ⟨0, _⟩ => show t.val = if (8 : Nat) = 1 then 0 else t.val; rw [if_neg (by decide)]))
  unfold decoded
  simp only [mulf_apply, addf_apply]
  rw [rowsAt_apply 0 ![0, 0, 0] rfl, rowsAt_apply 1 ![0, 0, 1] rfl, rowsAt_apply 2 ![0, 0, 2] rfl, rowsAt_apply 3 ![0, 0, 3] rfl, hB, hC]

end Cert.KernelIdeal.Host

end
-- ==== Proof.KernelHost.lean ====
/-
  What the kernel's region finds in the three arrays the host prepares for it: window 2's array is the decoded
  rows (the four gathers added, times `0.25`, times the tile's scale); window 0's array is the tokens with their
  format changed, which at the ideal values is the tokens themselves; window 3's is the bias reshaped to one row.
  Each is the composition of the host operations before the region that write it.
-/
import proofs.«410746_j70274254897207_3_alg».proof.Proof.Gen.KernelIdeal.Frame
import proofs.«410746_j70274254897207_3_alg».proof.Proof.KernelDecoded
import Idealize.ShloMosaic.Lib.Pipeline.Value
import Idealize.ShloMosaic.Lib.StableHlo.Run

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo
open Cert.Rows

variable {F : FTy → Type} [FloatOps F]

variable (m : (ℓ : Loc nD τ sig) → Buf (Elt F) ℓ)

set_option maxHeartbeats 4000000 in
/-- The region finds window 2's array at `decoded` of the arguments. -/
theorem V_main_v43 (c : Dev nD) :
    (V m c main_v43 : FVec F S8x512x4096 .f32)
      = decoded (m ((c : Thread nD τ).loc main_arg1)) (m ((c : Thread nD τ).loc main_arg2)) (m ((c : Thread nD τ).loc main_arg4)) := by
  dsimp only [V, hostOps0]
  after_results <;> rfl

/-- The region finds window 0's array at the tokens with their format changed. -/
theorem V_main_v44 (c : Dev nD) :
    (V m c main_v44 : FVec F S512x4096 .bf16) = truncf .bf16 (m ((c : Thread nD τ).loc main_arg0)) bitsLt_bf16_f32 := by
  dsimp only [V, hostOps0]
  after_results <;> rfl

/-- The region finds window 3's array at the bias as one row. -/
theorem V_main_v45 (c : Dev nD) :
    (V m c main_v45 : FVec F S1x4096 .f32) = shapeCast _ (m ((c : Thread nD τ).loc main_arg5)) shapeCasts_S4096_S1x4096 := by
  dsimp only [V, hostOps0]
  after_results <;> rfl

end Cert.KernelIdeal.Host

end
-- ==== Proof.KernelPieces.lean ====
/-
  What each of the body's three control cases leaves in the carried accumulator and in the output block, as
  the body's arithmetic of its loads.

  At the first block of a tile the body zeroes the accumulator and then adds the block's product to it; at the
  other blocks it adds the block's product to what the block before left; at the last block it also stores the
  accumulator plus the bias row into the output block. Each store covers its whole buffer, so the buffer ends at
  the last store's value, a load after a store reading the stored value back.
-/
import proofs.«410746_j70274254897207_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The first block of a tile: the accumulator ends at the block's product added to zero. -/
theorem sout_A (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S512x4096 .bf16) (x1 : Vec F S1x512x4096 .f32) (x2 : Vec F S1x512x512 .f32) (x3 : Vec F S1x512 .f32) :
    sout0_A_0 c i arg2 harg2 arg3 harg3 arg4 harg4 arg5 harg5 arg6 harg6 arg7 harg7 hc0 hc1 x0 x1 x2 x3 = k0_pay2 x0 x1 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x512) zero2, View.readCov_unit_zero (S := S512x512) _ zero2]
  simp only [View.readAt_eq_ld, harg2.read_unread, harg3.read_unread, harg4.read_unread, harg5.read_unread, harg6.read_unread, harg7.read_unread,
    View.ld_unit_zero (S := S512x4096) zero2, View.ld_unit_zero (S := S1x512x4096) zero3, View.ld_unit_zero (S := S1x512x512) zero3,
    View.ld_unit_zero (S := S1x512) zero2, View.ld_unit_zero (S := S512x512) zero2]

/-- A middle block: the accumulator ends at the block's product added to what the block before left. -/
theorem sout_B (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S512x4096 .bf16) (x1 : Vec F S1x512x4096 .f32) (x2 : Vec F S1x512x512 .f32) (x3 : Vec F S1x512 .f32) (xs0 : Vec F S512x512 .f32) :
    sout0_B_0 c i arg2 harg2 arg3 harg3 arg4 harg4 arg5 harg5 arg6 harg6 arg7 harg7 hc0 hc1 x0 x1 x2 x3 xs0 = k0_pay2 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero zero2]
  simp only [View.readAt_eq_ld, harg2.read_unread, harg3.read_unread, harg4.read_unread, harg5.read_unread, harg6.read_unread, harg7.read_unread,
    View.ld_unit_zero (S := S512x4096) zero2, View.ld_unit_zero (S := S1x512x4096) zero3, View.ld_unit_zero (S := S1x512x512) zero3,
    View.ld_unit_zero (S := S1x512) zero2, View.ld_unit_zero (S := S512x512) zero2]

/-- The last block: the accumulator likewise, -/
theorem sout_C (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x4096 .bf16) (x1 : Vec F S1x512x4096 .f32) (x2 : Vec F S1x512x512 .f32) (x3 : Vec F S1x512 .f32) (xs0 : Vec F S512x512 .f32) :
    sout0_C_0 c i arg2 harg2 arg3 harg3 arg4 harg4 arg5 harg5 arg6 harg6 arg7 harg7 hc0 hc1 x0 x1 x2 x3 xs0 = k0_pay2 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero zero2]
  simp only [View.readAt_eq_ld, harg2.read_unread, harg3.read_unread, harg4.read_unread, harg5.read_unread, harg6.read_unread, harg7.read_unread,
    View.ld_unit_zero (S := S512x4096) zero2, View.ld_unit_zero (S := S1x512x4096) zero3, View.ld_unit_zero (S := S1x512x512) zero3,
    View.ld_unit_zero (S := S1x512) zero2, View.ld_unit_zero (S := S512x512) zero2]

/-- and the output block ends at the accumulator's new value plus the bias row. -/
theorem out_C (c : Dev nD) (i : grid0.Coords) (arg2 : Memref sig .tc .vmem S512x4096 .bf16) (harg2 : arg2.IsWhole) (arg3 : Memref sig .tc .vmem S1x512x4096 .f32) (harg3 : arg3.IsWhole) (arg4 : Memref sig .tc .vmem S1x512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x4096 .bf16) (x1 : Vec F S1x512x4096 .f32) (x2 : Vec F S1x512x512 .f32) (x3 : Vec F S1x512 .f32) (xs0 : Vec F S512x512 .f32) :
    out0_C_4 c i arg2 harg2 arg3 harg3 arg4 harg4 arg5 harg5 arg6 harg6 arg7 harg7 hc0 hc1 x0 x1 x2 x3 xs0 = k0_pay3 (k0_pay2 x0 x1 x2 xs0) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero zero2]
  simp only [View.readCov_unit_zero (S := S512x512) _ zero2, View.readAt_eq_ld, harg2.read_unread, harg3.read_unread, harg4.read_unread, harg5.read_unread, harg6.read_unread, harg7.read_unread,
    View.ld_unit_zero (S := S512x4096) zero2, View.ld_unit_zero (S := S1x512x4096) zero3, View.ld_unit_zero (S := S1x512x512) zero3,
    View.ld_unit_zero (S := S1x512) zero2, View.ld_unit_zero (S := S512x512) zero2]

end Cert.KernelIdeal.Pieces

end
-- ==== Proof.KernelBody.lean ====
/-
  The body's arithmetic at one entry, over the extended reals.

  With `xb : [512, 4096]` the tokens, `rb : [1, 512, 4096]` a block of 512 rows of a tile's rotation,
  `db : [1, 512, 512]` the matching 512 columns of the tile's decoded rows and `acc : [512, 512]` the accumulator,
  the body's accumulation step leaves at `(n, r)`

      acc[n, r] + Σ_{k < 512} (Σ_{e < 4096} xb[n, e] · rb[0, k, e]) · db[0, r, k]

  (both matrix products contract the operands' minor axes; the changes of float format are the identity), the
  reset value is zero, and the epilogue adds the bias row: `acc[n, r] + bias[0, r]`.
-/
import proofs.«410746_j70274254897207_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx Idealize.SL.Sem

/-! ## The two products' operand indices -/

theorem lhsA_0 (i : S512x512.Idx) (q : dot_S512x4096_S512x4096_S512x512_1_1_0_0_n_n.contr.Idx) : (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem lhsA_1 (i : S512x512.Idx) (q : dot_S512x4096_S512x4096_S512x512_1_1_0_0_n_n.contr.Idx) : (dot_S512x4096_S512x4096_S512x512_1_1_0_0_n_n.lhsIdx i q 1).val = (q ⟨0, by decide⟩).val :=
  dot_S512x4096_S512x4096_S512x512_1_1_0_0_n_n.lhsIdx_val_of_single rfl i q
theorem rhsA_0 (i : S512x512.Idx) (q : dot_S512x4096_S512x4096_S512x512_1_1_0_0_n_n.contr.Idx) : (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rhsA_1 (i : S512x512.Idx) (q : dot_S512x4096_S512x4096_S512x512_1_1_0_0_n_n.contr.Idx) : (dot_S512x4096_S512x4096_S512x512_1_1_0_0_n_n.rhsIdx i q 1).val = (q ⟨0, by decide⟩).val :=
  dot_S512x4096_S512x4096_S512x512_1_1_0_0_n_n.rhsIdx_val_of_single rfl i q

theorem lhsB_0 (i : S512x512.Idx) (q : dot_S512x512_S512x512_S512x512_1_1_0_0_n_n.contr.Idx) : (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhsB_1 (i : S512x512.Idx) (q : dot_S512x512_S512x512_S512x512_1_1_0_0_n_n.contr.Idx) : (dot_S512x512_S512x512_S512x512_1_1_0_0_n_n.lhsIdx i q 1).val = (q ⟨0, by decide⟩).val :=
  dot_S512x512_S512x512_S512x512_1_1_0_0_n_n.lhsIdx_val_of_single rfl i q
theorem rhsB_0 (i : S512x512.Idx) (q : dot_S512x512_S512x512_S512x512_1_1_0_0_n_n.contr.Idx) : (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhsB_1 (i : S512x512.Idx) (q : dot_S512x512_S512x512_S512x512_1_1_0_0_n_n.contr.Idx) : (dot_S512x512_S512x512_S512x512_1_1_0_0_n_n.rhsIdx i q 1).val = (q ⟨0, by decide⟩).val :=
  dot_S512x512_S512x512_S512x512_1_1_0_0_n_n.rhsIdx_val_of_single rfl i q

/-! ## The products at an entry -/

/-- Entry `(p, q)` of the product: rows `p` and `q` of the operands contracted over their 4096 columns. -/
theorem mmA_apply (a : FVec Ideal S512x4096 .bf16) (b : FVec Ideal S512x4096 .bf16) (p q : Fin 512) :
    matmul dot_S512x4096_S512x4096_S512x512_1_1_0_0_n_n none a b (constant S512x512 .f32 0x00000000#32) (ix2 p q) = ∑ e : Fin 4096, a (ix2 p e) * b (ix2 q e) := by
  simp only [matmul]
  rw [Ideal.matmul_constant_zero_apply, ← Equiv.sum_comp (ValueIdx.contrEquiv1 dot_S512x4096_S512x4096_S512x512_1_1_0_0_n_n 4096 rfl rfl).symm]
  refine Finset.sum_congr rfl fun e _ => ?_
  have hk := ValueIdx.contrEquiv1_symm_val dot_S512x4096_S512x4096_S512x512_1_1_0_0_n_n 4096 rfl rfl e
  have el : dot_S512x4096_S512x4096_S512x512_1_1_0_0_n_n.lhsIdx (ix2 p q) ((ValueIdx.contrEquiv1 dot_S512x4096_S512x4096_S512x512_1_1_0_0_n_n 4096 rfl rfl).symm e) = ix2 p e := funext fun a => Fin.ext (by
    match a with
    | ⟨0, _⟩ => exact lhsA_0 _ _
    | ⟨1, _⟩ => exact (lhsA_1 _ _).trans hk)
  have er : dot_S512x4096_S512x4096_S512x512_1_1_0_0_n_n.rhsIdx (ix2 p q) ((ValueIdx.contrEquiv1 dot_S512x4096_S512x4096_S512x512_1_1_0_0_n_n 4096 rfl rfl).symm e) = ix2 q e := funext fun a => Fin.ext (by
    match a with
    | ⟨0, _⟩ => exact rhsA_0 _ _
    | ⟨1, _⟩ => exact (rhsA_1 _ _).trans hk)
  rw [el, er]

/-- Entry `(p, q)` of the product: rows `p` and `q` of the operands contracted over their 512 columns. -/
theorem mmB_apply (a : FVec Ideal S512x512 .f32) (b : FVec Ideal S512x512 .f32) (p q : Fin 512) :
    matmul dot_S512x512_S512x512_S512x512_1_1_0_0_n_n none a b (constant S512x512 .f32 0x00000000#32) (ix2 p q) = ∑ e : Fin 512, a (ix2 p e) * b (ix2 q e) := by
  simp only [matmul]
  rw [Ideal.matmul_constant_zero_apply, ← Equiv.sum_comp (ValueIdx.contrEquiv1 dot_S512x512_S512x512_S512x512_1_1_0_0_n_n 512 rfl rfl).symm]
  refine Finset.sum_congr rfl fun e _ => ?_
  have hk := ValueIdx.contrEquiv1_symm_val dot_S512x512_S512x512_S512x512_1_1_0_0_n_n 512 rfl rfl e
  have el : dot_S512x512_S512x512_S512x512_1_1_0_0_n_n.lhsIdx (ix2 p q) ((ValueIdx.contrEquiv1 dot_S512x512_S512x512_S512x512_1_1_0_0_n_n 512 rfl rfl).symm e) = ix2 p e := funext fun a => Fin.ext (by
    match a with
    | ⟨0, _⟩ => exact lhsB_0 _ _
    | ⟨1, _⟩ => exact (lhsB_1 _ _).trans hk)
  have er : dot_S512x512_S512x512_S512x512_1_1_0_0_n_n.rhsIdx (ix2 p q) ((ValueIdx.contrEquiv1 dot_S512x512_S512x512_S512x512_1_1_0_0_n_n 512 rfl rfl).symm e) = ix2 q e := funext fun a => Fin.ext (by
    match a with
    | ⟨0, _⟩ => exact rhsB_0 _ _
    | ⟨1, _⟩ => exact (rhsB_1 _ _).trans hk)
  rw [el, er]

/-! ## The payloads at an entry -/

/-- The reset value is zero everywhere. -/
theorem pay1_apply (y : S512x512.Idx) : k0_pay1 (F := Ideal) y = 0 := by
  unfold k0_pay1
  simp only [shapeCast_self]
  show Ideal.ofBits .f32 0x00000000#32 = 0
  exact Ideal.ofBits_zero_f32

/-- A rotation block's row `k`, read through the body's reshape and format change. -/
theorem rot_block_apply (v5 : Vec Ideal S1x512x4096 .f32) (k : Fin 512) (e : Fin 4096) :
    (truncf .bf16 (shapeCast S512x4096 v5 shapeCasts_S1x512x4096_S512x4096) bitsLt_bf16_f32 : FVec Ideal S512x4096 .bf16) (ix2 k e)
      = v5 (ix3 0 k e) := by
  show shapeCast S512x4096 v5 shapeCasts_S1x512x4096_S512x4096 (ix2 k e) = _
  exact shapeCast_apply v5 shapeCasts_S1x512x4096_S512x4096 (ix2 k e) (ix3 0 k e)
    (by rewrite [Shape.rowMajor_val_three, Shape.rowMajor_val_two]; show (0 * 512 + k.val) * 4096 + e.val = k.val * 4096 + e.val; omega)

/-- A decoded block's row `r`, read through the body's reshape. -/
theorem dec_block_apply (v9 : Vec Ideal S1x512x512 .f32) (r k : Fin 512) :
    (shapeCast S512x512 v9 shapeCasts_S1x512x512_S512x512 : FVec Ideal S512x512 .f32) (ix2 r k) = v9 (ix3 0 r k) :=
  shapeCast_apply v9 shapeCasts_S1x512x512_S512x512 (ix2 r k) (ix3 0 r k)
    (by rewrite [Shape.rowMajor_val_three, Shape.rowMajor_val_two]; show (0 * 512 + r.val) * 512 + k.val = r.val * 512 + k.val; omega)

/-- The accumulation step at `(n, r)`. -/
theorem pay2_apply (v3 : Vec Ideal S512x4096 .bf16) (v5 : Vec Ideal S1x512x4096 .f32) (v9 : Vec Ideal S1x512x512 .f32)
    (v11 : Vec Ideal S512x512 .f32) (n r : Fin 512) :
    k0_pay2 (F := Ideal) v3 v5 v9 v11 (ix2 n r)
      = v11 (ix2 n r) + ∑ k : Fin 512, (∑ e : Fin 4096, v3 (ix2 n e) * v5 (ix3 0 k e)) * v9 (ix3 0 r k) := by
  unfold k0_pay2
  simp only [shapeCast_self]
  refine (addf_apply _ _ _).trans (congrArg (v11 (ix2 n r) + ·) ?_)
  refine (mmB_apply _ _ n r).trans (Finset.sum_congr rfl fun k _ => ?_)
  rw [mmA_apply, dec_block_apply]
  refine congrArg (· * v9 (ix3 0 r k)) (Finset.sum_congr rfl fun e _ => ?_)
  rw [rot_block_apply]

/-- The epilogue at `(n, r)`: the accumulator plus the bias row. -/
theorem pay3_apply (v20 : Vec Ideal S512x512 .f32) (v21 : Vec Ideal S1x512 .f32) (n r : Fin 512) :
    k0_pay3 (F := Ideal) v20 v21 (ix2 n r) = v20 (ix2 n r) + v21 (ix2 0 r) := by
  unfold k0_pay3
  simp only [shapeCast_self]
  refine (addf_apply _ _ _).trans (congrArg (v20 (ix2 n r) + ·) ?_)
  exact broadcastTo_apply v21 broadcasts_S1x512_S512x512 (ix2 n r) (ix2 0 r) (fun a => by
    match a with
    | ⟨0, _⟩ => show (0 : Nat) = if (1 : Nat) = 1 then 0 else _; rw [if_pos rfl]
    | ⟨1, _⟩ => show r.val = if (512 : Nat) = 1 then 0 else r.val; rw [if_neg (by decide)])

end Cert.KernelIdeal.Body

end
-- ==== Proof.RealSums.lean ====
/-
  Sums of reals, and their image in the extended reals.

  Every quantity of this certificate is, once the inputs are finite, the image of a real number, and
  both programs compute the same real: for a token row `X`, a tile's rotation `R`, its four gathered
  codeword rows `C k` and its scale `s`,

      Σ_d (Σ_e X e · R d e) · ((C 0 d + C 1 d + C 2 d + C 3 d) · ¼ · s)
        = Σ_e X e · ((Σ_d ((0 + Σ_k C k d) / 4) · R d e) · s),

  by distributivity and exchanging the two sums. The left side is cut into eight blocks of 512
  consecutive `d`; summing the blocks in order gives the sum over all 4096 (`sum_blocks`).
-/
import Idealize.ShloMosaic.PureOps.Ideal.Laws

noncomputable section

namespace Cert.RealSums

open Finset

/-- A finite sum of images of reals is the image of the sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of images of reals is the image of the sum of products. -/
theorem coe_sum_mul {ι : Type*} (s : Finset ι) (f g : ι → ℝ) :
    ∑ i ∈ s, (f i : EReal) * (g i : EReal) = ((∑ i ∈ s, f i * g i : ℝ) : EReal) := by
  rw [← coe_sum]
  exact Finset.sum_congr rfl fun i _ => (EReal.coe_mul _ _).symm

/-- Entry `d'` of block `j` of an axis of 4096 cut into blocks of 512 (total in `j`, `d'`: reduced modulo 4096). -/
def blk (j d' : ℕ) : Fin 4096 := ⟨(512 * j + d') % 4096, Nat.mod_lt _ (by decide)⟩

theorem blk_val {j d' : ℕ} (hj : j < 8) (hd : d' < 512) : (blk j d').val = 512 * j + d' := by
  show (512 * j + d') % 4096 = _
  omega

/-- Summing eight blocks of 512 in order is summing over all 4096. -/
theorem sum_blocks (F : Fin 4096 → ℝ) :
    ∑ j ∈ Finset.range 8, ∑ d' : Fin 512, F (blk j d'.val) = ∑ d : Fin 4096, F d := by
  rw [Finset.sum_range (fun j => ∑ d' : Fin 512, F (blk j d'.val))]
  rw [← (finProdFinEquiv (m := 8) (n := 512)).sum_comp F, Fintype.sum_prod_type]
  refine Finset.sum_congr rfl fun j _ => Finset.sum_congr rfl fun d' _ => ?_
  congr 1
  apply Fin.ext
  have hj := j.isLt
  have hd := d'.isLt
  show (512 * j.val + d'.val) % 4096 = d'.val + 512 * j.val
  omega

/-- The two programs' real value at one output entry: distributivity and the exchange of the two sums. -/
theorem contraction_swap (X : Fin 4096 → ℝ) (R : Fin 4096 → Fin 4096 → ℝ) (C : Fin 4 → Fin 4096 → ℝ) (s : ℝ) :
    ∑ d : Fin 4096, (∑ e, X e * R d e) * ((((C 0 d + C 1 d) + C 2 d) + C 3 d) * (1 / 4) * s)
      = ∑ e, X e * ((∑ d, ((0 + ∑ k, C k d) / 4) * R d e) * s) := by
  simp only [Fin.sum_univ_four, zero_add]
  simp only [Finset.sum_mul, Finset.mul_sum]
  rw [Finset.sum_comm]
  refine Finset.sum_congr rfl fun e _ => Finset.sum_congr rfl fun d _ => ?_
  ring

end Cert.RealSums

end
-- ==== Proof.Spec.lean ====
/-
  What both programs compute, as real numbers.

  With `x : [512, 4096]` the tokens, `cw : [16384, 4096]` the codeword table, `idx : [8, 512, 4]` the start
  indices, `rot : [8, 4096, 4096]` the tiles' rotations, `sc : [8]` their scales and `b : [4096]` the bias,
  entry `(n, 512·t + r)` of the result is

      Σ_e x[n, e] · ((Σ_d ((0 + Σ_k cw[row(idx[t, r, k]), d]) / 4) · rot[t, d, e]) · sc[t]) + b[512·t + r]

  (`value`; `row` reads a start index signed, moves a negative one up by the table's length and clamps it into
  the table). The reference computes it in this order. The kernel sums, for the eight blocks `j` of 512
  consecutive `d`, the addend

      Σ_{d in block j} (Σ_e x[n, e] · rot[t, d, e]) · ((cw₀ + cw₁ + cw₂ + cw₃)[d] · ¼ · sc[t])

  (`addend`), in order, and adds the bias; over the reals that is the same number (`blocks_eq_value`), by
  distributivity and the exchange of the sums over `d` and `e`. All of it is stated over the real parts of the
  arrays' entries; `Finite` says the entries are real numbers, which the precondition gives.
-/
import proofs.«410746_j70274254897207_3_alg».proof.Proof.RealSums
import proofs.«410746_j70274254897207_3_alg».proof.Proof.Rows

noncomputable section

namespace Cert.Spec

open Idealize.ShloMosaic Idealize.ShloMosaic.ValueIdx Cert.RealSums Cert.Rows

/-! ## The programs' float constants -/

/-- The pattern of `4.0` denotes the real 4. -/
theorem ofBits_four : Ideal.ofBits .f32 0x40800000#32 = ((4 : ℝ) : EReal) := by
  simp [Ideal.ofBits, Ideal.ieee, -EReal.coe_mul]; norm_num

/-- The pattern of `0.25` denotes the real 1/4. -/
theorem ofBits_quarter : Ideal.ofBits .f32 0x3E800000#32 = ((1 / 4 : ℝ) : EReal) := by
  simp [Ideal.ofBits, Ideal.ieee, -EReal.coe_mul]; norm_num

/-- An extended real that is the image of a real is the image of its real part. -/
theorem coe_toReal_of_exists {a : EReal} (h : ∃ v : ℝ, a = (v : EReal)) : ((a.toReal : ℝ) : EReal) = a := by
  obtain ⟨v, rfl⟩ := h
  rw [EReal.toReal_coe]

/-- Column `512·t + r` of the result: row `r` of tile `t`. -/
def col (t : Fin 8) (r : Fin 512) : Fin 4096 := ⟨512 * t.val + r.val, by have := t.isLt; have := r.isLt; omega⟩
/-- The tile a result column belongs to, -/
def tileOf (f : Fin 4096) : Fin 8 := ⟨f.val / 512, by have := f.isLt; omega⟩
/-- and its row inside the tile. -/
def rowIn (f : Fin 4096) : Fin 512 := ⟨f.val % 512, Nat.mod_lt _ (by decide)⟩

theorem col_tileOf_rowIn (f : Fin 4096) : col (tileOf f) (rowIn f) = f := by
  apply Fin.ext
  show 512 * (f.val / 512) + f.val % 512 = f.val
  omega

section
variable (x : FVec Ideal ⟨2, ![512, 4096]⟩ .f32) (cw : FVec Ideal ⟨2, ![16384, 4096]⟩ .f32)
  (idx : IVec ⟨3, ![8, 512, 4]⟩ 32) (rot : FVec Ideal ⟨3, ![8, 4096, 4096]⟩ .f32)
  (sc : FVec Ideal ⟨1, ![8]⟩ .f32) (b : FVec Ideal ⟨1, ![4096]⟩ .f32)

/-- Every entry of the five float arrays is a real number. -/
structure Finite : Prop where
  hx : ∀ i, ∃ v : ℝ, x i = (v : EReal)
  hcw : ∀ i, ∃ v : ℝ, cw i = (v : EReal)
  hrot : ∀ i, ∃ v : ℝ, rot i = (v : EReal)
  hsc : ∀ i, ∃ v : ℝ, sc i = (v : EReal)
  hb : ∀ i, ∃ v : ℝ, b i = (v : EReal)

/-- Entry `d` of the codeword row that start index `k` of output row `(t, r)` names. -/
def code (t : Fin 8) (r : Fin 512) (k : Fin 4) (d : Fin 4096) : ℝ :=
  EReal.toReal (cw (ix2 (rowOf (wrapNeg (idx (ix3 t r k)))) d))

/-- Entry `(n, 512·t + r)` of the result. -/
def value (n : Fin 512) (t : Fin 8) (r : Fin 512) : ℝ :=
  ∑ e : Fin 4096, EReal.toReal (x (ix2 n e)) *
      ((∑ d : Fin 4096, ((0 + ∑ k : Fin 4, code cw idx t r k d) / 4) * EReal.toReal (rot (ix3 t d e)))
        * EReal.toReal (sc (ix1 t)))
    + EReal.toReal (b (ix1 (col t r)))

/-- The result array. -/
def G : FVec Ideal ⟨2, ![512, 4096]⟩ .f32 :=
  fun i => ((value x cw idx rot sc b (i 0) (tileOf (i 1)) (rowIn (i 1)) : ℝ) : EReal)

/-- Block `j`'s addend to entry `(n, 512·t + r)`, as the kernel forms it. -/
def addend (n : Fin 512) (t : Fin 8) (r : Fin 512) (j : ℕ) : ℝ :=
  ∑ d' : Fin 512, (∑ e : Fin 4096, EReal.toReal (x (ix2 n e)) * EReal.toReal (rot (ix3 t (blk j d'.val) e)))
    * ((((code cw idx t r 0 (blk j d'.val) + code cw idx t r 1 (blk j d'.val)) + code cw idx t r 2 (blk j d'.val))
        + code cw idx t r 3 (blk j d'.val)) * (1 / 4) * EReal.toReal (sc (ix1 t)))

/-- The eight blocks' addends in order, plus the bias, are the result's entry. -/
theorem blocks_eq_value (n : Fin 512) (t : Fin 8) (r : Fin 512) :
    (∑ j ∈ Finset.range 8, addend x cw idx rot sc n t r j) + EReal.toReal (b (ix1 (col t r)))
      = value x cw idx rot sc b n t r := by
  unfold addend value
  rw [sum_blocks (fun d => (∑ e : Fin 4096, EReal.toReal (x (ix2 n e)) * EReal.toReal (rot (ix3 t d e)))
    * ((((code cw idx t r 0 d + code cw idx t r 1 d) + code cw idx t r 2 d) + code cw idx t r 3 d) * (1 / 4)
      * EReal.toReal (sc (ix1 t))))]
  rw [contraction_swap (fun e => EReal.toReal (x (ix2 n e))) (fun d e => EReal.toReal (rot (ix3 t d e)))
    (fun k d => code cw idx t r k d) (EReal.toReal (sc (ix1 t)))]

end

end Cert.Spec

end
-- ==== Proof.KernelValue.lean ====
/-
  The kernel's result array, entry by entry.

  The grid's point `p` works on tile `p / 8` and on block `p % 8` of the 4096 columns `d`. Its accumulation
  step adds to the carried accumulator, at `(n, r)`,

      Σ_{k < 512} (Σ_e x[n, e] · rot[p / 8, 512·(p % 8) + k, e]) · dec[p / 8, r, 512·(p % 8) + k]

  (`addendE`): the accumulator is zeroed at the tile's first block, so after the tile's block `j` it holds the
  sum of the addends of blocks `0 … j`, and the tile's last point stores that sum plus the bias row into columns
  `512·(p / 8) … 512·(p / 8) + 511` of the result. When the float inputs are finite every term is the image of a
  real number, and the stored entry is the image of `Cert.Spec.value`.
-/
import proofs.«410746_j70274254897207_3_alg».proof.Proof.Gen.KernelIdeal.Value
import proofs.«410746_j70274254897207_3_alg».proof.Proof.KernelPieces
import proofs.«410746_j70274254897207_3_alg».proof.Proof.KernelBody
import proofs.«410746_j70274254897207_3_alg».proof.Proof.KernelDecoded
import proofs.«410746_j70274254897207_3_alg».proof.Proof.Spec

noncomputable section

namespace Cert.KernelIdeal.RunValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.RealSums Cert.Rows

variable (m : (ℓ : Loc nD τ sig) → Buf (Elt Ideal) ℓ)

/-! ## The windows' blocks at a point -/

/-- The tokens' block (the whole array, at every point), -/
abbrev xblk (c : Dev nD) (t : Fin cfg0.N) : Vec Ideal S512x4096 .bf16 := iblk m c 0 t
/-- the rotation's block: 512 rows of the point's tile, -/
abbrev rblk (c : Dev nD) (t : Fin cfg0.N) : Vec Ideal S1x512x4096 .f32 := iblk m c 1 t
/-- the decoded rows' block: the matching 512 columns, -/
abbrev dblk (c : Dev nD) (t : Fin cfg0.N) : Vec Ideal S1x512x512 .f32 := iblk m c 2 t
/-- the bias row's block: the tile's 512 columns. -/
abbrev bblk (c : Dev nD) (t : Fin cfg0.N) : Vec Ideal S1x512 .f32 := iblk m c 3 t

/-- The printed index maps, decided over the grid: point `p` is tile `p / 8`, block `p % 8`. -/
theorem idx_facts : ∀ t : Fin cfg0.N,
    win0_0.index t (0 : Fin 2) = 0 ∧ win0_0.index t (1 : Fin 2) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 2) = 0 ∧ win0_3.index t (1 : Fin 2) = t.val / 8
    ∧ win0_4.index t (0 : Fin 2) = 0 ∧ win0_4.index t (1 : Fin 2) = t.val / 8 :=
  (by decide +kernel : ∀ t : Fin grid0.N, _)

theorem xblk_apply (c : Dev nD) (t : Fin cfg0.N) (n : Fin 512) (e : Fin 4096) :
    xblk m c t (ix2 n e) = V m c main_v44 (ix2 n e) := by
  obtain ⟨h0, h1, -⟩ := idx_facts t
  show V m c main_v44 (((cfg0.win 0).blk t).view.emb (ix2 n e)) = V m c main_v44 (ix2 n e)
  refine congrArg _ (funext fun a => Fin.ext ?_)
  match a with
  | ⟨0, _⟩ => show win0_0.index t (0 : Fin 2) * 512 + 1 * n.val = n.val; rw [h0]; omega
  | ⟨1, _⟩ => show win0_0.index t (1 : Fin 2) * 4096 + 1 * e.val = e.val; rw [h1]; omega

theorem rblk_apply (c : Dev nD) (t : Fin cfg0.N) (k : Fin 512) (e : Fin 4096) (τ' : Fin 8) (d : Fin 4096)
    (hτ : τ'.val = t.val / 8) (hd : d.val = 512 * (t.val % 8) + k.val) :
    rblk m c t (ix3 0 k e) = V m c main_arg3 (ix3 τ' d e) := by
  obtain ⟨-, -, h0, h1, h2, -⟩ := idx_facts t
  show V m c main_arg3 (((cfg0.win 1).blk t).view.emb (ix3 0 k e)) = V m c main_arg3 (ix3 τ' d e)
  refine congrArg _ (funext fun a => Fin.ext ?_)
  match a with
  | ⟨0, _⟩ => show win0_1.index t (0 : Fin 3) * 1 + 1 * 0 = τ'.val; rw [h0]; omega
  | ⟨1, _⟩ => show win0_1.index t (1 : Fin 3) * 512 + 1 * k.val = d.val; rw [h1]; omega
  | ⟨2, _⟩ => show win0_1.index t (2 : Fin 3) * 4096 + 1 * e.val = e.val; rw [h2]; omega

theorem dblk_apply (c : Dev nD) (t : Fin cfg0.N) (r k : Fin 512) (τ' : Fin 8) (d : Fin 4096)
    (hτ : τ'.val = t.val / 8) (hd : d.val = 512 * (t.val % 8) + k.val) :
    dblk m c t (ix3 0 r k) = V m c main_v43 (ix3 τ' r d) := by
  obtain ⟨-, -, -, -, -, h0, h1, h2, -⟩ := idx_facts t
  show V m c main_v43 (((cfg0.win 2).blk t).view.emb (ix3 0 r k)) = V m c main_v43 (ix3 τ' r d)
  refine congrArg _ (funext fun a => Fin.ext ?_)
  match a with
  | ⟨0, _⟩ => show win0_2.index t (0 : Fin 3) * 1 + 1 * 0 = τ'.val; rw [h0]; omega
  | ⟨1, _⟩ => show win0_2.index t (1 : Fin 3) * 512 + 1 * r.val = r.val; rw [h1]; omega
  | ⟨2, _⟩ => show win0_2.index t (2 : Fin 3) * 512 + 1 * k.val = d.val; rw [h2]; omega

theorem bblk_apply (c : Dev nD) (t : Fin cfg0.N) (r : Fin 512) (f : Fin 4096) (hf : f.val = 512 * (t.val / 8) + r.val) :
    bblk m c t (ix2 0 r) = V m c main_v45 (ix2 0 f) := by
  obtain ⟨-, -, -, -, -, -, -, -, h0, h1, -⟩ := idx_facts t
  show V m c main_v45 (((cfg0.win 3).blk t).view.emb (ix2 0 r)) = V m c main_v45 (ix2 0 f)
  refine congrArg _ (funext fun a => Fin.ext ?_)
  match a with
  | ⟨0, _⟩ => show win0_3.index t (0 : Fin 2) * 1 + 1 * 0 = 0; rw [h0]
  | ⟨1, _⟩ => show win0_3.index t (1 : Fin 2) * 512 + 1 * r.val = f.val; rw [h1]; omega

/-! ## What each point adds to the accumulator -/

/-- Point `p`'s addend at an entry of the accumulator (zero past the grid). -/
def addendE (c : Dev nD) (p : ℕ) (i : S512x512.Idx) : EReal :=
  if h : p < cfg0.N then
    ∑ k : Fin 512, (∑ e : Fin 4096, xblk m c ⟨p, h⟩ (ix2 (i 0) e) * rblk m c ⟨p, h⟩ (ix3 0 k e)) * dblk m c ⟨p, h⟩ (ix3 0 (i 1) k)
  else 0

/-- The accumulation step at a point, at an entry: what was there plus the point's addend. -/
theorem step_apply (c : Dev nD) (t : Fin cfg0.N) (acc : Vec Ideal S512x512 .f32) (i : S512x512.Idx) :
    k0_pay2 (F := Ideal) (iblk m c 0 t) (iblk m c 1 t) (iblk m c 2 t) acc i = acc i + addendE m c t.val i := by
  obtain ⟨n, r, rfl⟩ : ∃ (n r : Fin 512), i = ix2 n r := ⟨i 0, i 1, eq_ix2 i⟩
  refine (Body.pay2_apply (xblk m c t) (rblk m c t) (dblk m c t) acc n r).trans ?_
  unfold addendE
  rw [dif_pos t.isLt]

/-- At a tile's first block the accumulator is reset: it ends at zero plus the addend. -/
theorem scAt_reset (c : Dev nD) (n : ℕ) (hb : n < cfg0.N) (h0 : n % 8 = 0) (acc : Vec Ideal S512x512 .f32) (i : S512x512.Idx) :
    scAt0_0 m c n hb acc i = (fun _ => (0 : EReal)) i + addendE m c n i := by
  have h1 : ¬n % 8 = 7 := by omega
  unfold scAt0_0
  rw [dif_pos h0, dif_neg h1]
  rw [Pieces.sout_A (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) ((hcond0_0 ⟨n, hb⟩).mpr h0) (fun h => h1 ((hcond0_1 ⟨n, hb⟩).mp h)) (iblk m c 0 ⟨n, hb⟩) (iblk m c 1 ⟨n, hb⟩) (iblk m c 2 ⟨n, hb⟩) (iblk m c 3 ⟨n, hb⟩)]
  refine (step_apply m c ⟨n, hb⟩ (k0_pay1 (F := Ideal)) i).trans ?_
  rw [Body.pay1_apply]

/-- At the other blocks it ends at what the block before left plus the addend. -/
theorem scAt_step (c : Dev nD) (n : ℕ) (hb : n < cfg0.N) (h0 : ¬n % 8 = 0) (acc : Vec Ideal S512x512 .f32) (i : S512x512.Idx) :
    scAt0_0 m c n hb acc i = acc i + addendE m c n i := by
  unfold scAt0_0
  rw [dif_neg h0]
  by_cases h1 : n % 8 = 7
  · rw [dif_pos h1]
    rw [Pieces.sout_C (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) (iblk m c 2 ⟨n, hb⟩) (iblk m c 3 ⟨n, hb⟩) acc]
    exact step_apply m c ⟨n, hb⟩ acc i
  · rw [dif_neg h1]
    rw [Pieces.sout_B (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) (iblk m c 2 ⟨n, hb⟩) (iblk m c 3 ⟨n, hb⟩) acc]
    exact step_apply m c ⟨n, hb⟩ acc i

/-- The accumulator after point `t`: zero plus the addends of the tile's blocks up to `t`'s. -/
theorem scratch_after (c : Dev nD) (t : Fin cfg0.N) (i : S512x512.Idx) :
    (outsAt0 m c t.val t.isLt).2 i = 0 + ∑ s ∈ Finset.range (t.val % 8 + 1), addendE m c (8 * (t.val / 8) + s) i := by
  have hN : cfg0.N = 64 := N_0
  rw [soutsAt0_0_eq m c t]
  exact Pipeline.accAt_add_apply (fun n h => scAt0_0 m c n h (VS0_0.read (Elt Ideal) VS0_0.junk)) (scAt0_0 m c)
    (fun _ => (0 : EReal)) (addendE m c) (8 * (t.val / 8)) 7
    (fun h i => scAt_reset m c _ h (by omega) _ i)
    (fun n h acc i hlt hle => scAt_step m c n h (by omega) acc i)
    (t.val % 8) (by omega) _ i

/-- The output block at a tile's last point: the accumulator's new value plus the bias row. -/
theorem out_last (c : Dev nD) (t : Fin cfg0.N) (h0 : ¬t.val % 8 = 0) (h1 : t.val % 8 = 7) (n r : Fin 512) :
    (outsAt0 m c t.val t.isLt).1 (ix2 n r) = (outsAt0 m c t.val t.isLt).2 (ix2 n r) + bblk m c t (ix2 0 r) := by
  rw [outsAt0_C m c t h0 h1]
  dsimp only
  rw [Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _,
    Pieces.sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _]
  exact Body.pay3_apply _ (bblk m c t) n r

/-! ## The arguments, and what the region finds -/

abbrev ax (c : Dev nD) : FVec Ideal S512x4096 .f32 := m ((c : Thread nD τ).loc main_arg0)
abbrev acw (c : Dev nD) : FVec Ideal S16384x4096 .f32 := m ((c : Thread nD τ).loc main_arg1)
abbrev aidx (c : Dev nD) : IVec S8x512x4 32 := m ((c : Thread nD τ).loc main_arg2)
abbrev arot (c : Dev nD) : FVec Ideal S8x4096x4096 .f32 := m ((c : Thread nD τ).loc main_arg3)
abbrev asc (c : Dev nD) : FVec Ideal S8 .f32 := m ((c : Thread nD τ).loc main_arg4)
abbrev ab (c : Dev nD) : FVec Ideal S4096 .f32 := m ((c : Thread nD τ).loc main_arg5)

/-- What the host operations before the region leave in the three arrays they prepare for it. -/
structure Found (c : Dev nD) : Prop where
  dec : (V m c main_v43 : FVec Ideal S8x512x4096 .f32) = Host.decoded (acw m c) (aidx m c) (asc m c)
  tok : (V m c main_v44 : FVec Ideal S512x4096 .bf16) = truncf .bf16 (ax m c) bitsLt_bf16_f32
  bias : (V m c main_v45 : FVec Ideal S1x4096 .f32) = shapeCast _ (ab m c) shapeCasts_S4096_S1x4096

/-! ## With finite inputs: the entries as real numbers -/

/-- The decoded entry of four real rows and a real scale is the image of the real expression. -/
theorem dec_real {a b c d s : EReal} (ha : ∃ v : ℝ, a = (v : EReal)) (hb : ∃ v : ℝ, b = (v : EReal))
    (hc : ∃ v : ℝ, c = (v : EReal)) (hd : ∃ v : ℝ, d = (v : EReal)) (hs : ∃ v : ℝ, s = (v : EReal)) :
    (((a + b) + c) + d) * ((1 / 4 : ℝ) : EReal) * s
      = (((((a.toReal + b.toReal) + c.toReal) + d.toReal) * (1 / 4) * s.toReal : ℝ) : EReal) := by
  obtain ⟨a, rfl⟩ := ha
  obtain ⟨b, rfl⟩ := hb
  obtain ⟨c, rfl⟩ := hc
  obtain ⟨d, rfl⟩ := hd
  obtain ⟨s, rfl⟩ := hs
  simp only [EReal.toReal_coe, EReal.coe_add, EReal.coe_mul]

/-- The bias row at column `f` is the bias at `f`. -/
theorem bias_row_apply (b : FVec Ideal S4096 .f32) (f : Fin 4096) :
    (shapeCast S1x4096 b shapeCasts_S4096_S1x4096 : FVec Ideal S1x4096 .f32) (ix2 0 f) = b (ix1 f) :=
  shapeCast_apply b shapeCasts_S4096_S1x4096 (ix2 0 f) (ix1 f)
    (by rewrite [Shape.rowMajor_val_one, Shape.rowMajor_val_two]; show f.val = 0 * 4096 + f.val; omega)

section
variable (c : Dev nD) (hV : Found m c)
  (hfin : Spec.Finite (ax m c) (acw m c) (arot m c) (asc m c) (ab m c))
include hV hfin

/-- Point `p`'s addend at `(n, r)` is the image of the real addend of tile `p / 8`, block `p % 8`. -/
theorem addend_real (p : ℕ) (hp : p < cfg0.N) (n r : Fin 512) (τ' : Fin 8) (hτ : τ'.val = p / 8) :
    addendE m c p (ix2 n r)
      = ((Spec.addend (ax m c) (acw m c) (aidx m c) (arot m c) (asc m c) n τ' r (p % 8) : ℝ) : EReal) := by
  have hN : cfg0.N = 64 := N_0
  unfold addendE Spec.addend
  rw [dif_pos hp, ← coe_sum]
  refine Finset.sum_congr rfl fun k _ => ?_
  have hd : (blk (p % 8) k.val).val = 512 * (p % 8) + k.val := blk_val (by omega) k.isLt
  have e1 : ∀ e : Fin 4096, xblk m c ⟨p, hp⟩ (ix2 n e) * rblk m c ⟨p, hp⟩ (ix3 0 k e)
      = ((EReal.toReal (ax m c (ix2 n e)) : ℝ) : EReal) * ((EReal.toReal (arot m c (ix3 τ' (blk (p % 8) k.val) e)) : ℝ) : EReal) := by
    intro e
    rw [xblk_apply, hV.tok, rblk_apply m c ⟨p, hp⟩ k e τ' (blk (p % 8) k.val) hτ hd, V_main_arg3]
    exact congrArg₂ (· * ·) (Spec.coe_toReal_of_exists (hfin.hx (ix2 n e))).symm (Spec.coe_toReal_of_exists (hfin.hrot _)).symm
  have e2 : dblk m c ⟨p, hp⟩ (ix3 0 r k)
      = ((((((Spec.code (acw m c) (aidx m c) τ' r 0 (blk (p % 8) k.val) + Spec.code (acw m c) (aidx m c) τ' r 1 (blk (p % 8) k.val))
            + Spec.code (acw m c) (aidx m c) τ' r 2 (blk (p % 8) k.val)) + Spec.code (acw m c) (aidx m c) τ' r 3 (blk (p % 8) k.val))
          * (1 / 4) * EReal.toReal (asc m c (ix1 τ')) : ℝ)) : EReal) := by
    rw [dblk_apply m c ⟨p, hp⟩ r k τ' (blk (p % 8) k.val) hτ hd, hV.dec, Host.decoded_apply, Spec.ofBits_quarter]
    exact dec_real (hfin.hcw _) (hfin.hcw _) (hfin.hcw _) (hfin.hcw _) (hfin.hsc _)
  rw [Finset.sum_congr (s₁ := Finset.univ) rfl (fun e _ => e1 e), coe_sum_mul, e2, ← EReal.coe_mul]

/-- The entry a tile's last point stores into the result is the common function's. -/
theorem out_value (t : Fin cfg0.N) (h1 : t.val % 8 = 7) (n r : Fin 512) (f : Fin 4096) (hf : f.val = 512 * (t.val / 8) + r.val) :
    (outsAt0 m c t.val t.isLt).1 (ix2 n r)
      = Spec.G (ax m c) (acw m c) (aidx m c) (arot m c) (asc m c) (ab m c) (ix2 n f) := by
  have hN : cfg0.N = 64 := N_0
  have hr := r.isLt
  have hτ : (Spec.tileOf f).val = t.val / 8 := by show f.val / 512 = _; omega
  have hrow : Spec.rowIn f = r := Fin.ext (by show f.val % 512 = r.val; omega)
  have hcol : Spec.col (Spec.tileOf f) r = f := by rw [← hrow]; exact Spec.col_tileOf_rowIn f
  have e : ∀ s ∈ Finset.range 8, addendE m c (8 * (t.val / 8) + s) (ix2 n r)
      = ((Spec.addend (ax m c) (acw m c) (aidx m c) (arot m c) (asc m c) n (Spec.tileOf f) r s : ℝ) : EReal) := by
    intro s hs
    have hs' : s < 8 := Finset.mem_range.mp hs
    have h := addend_real m c hV hfin (8 * (t.val / 8) + s) (by omega) n r (Spec.tileOf f) (by omega)
    rwa [show (8 * (t.val / 8) + s) % 8 = s by omega] at h
  rw [out_last m c t (by omega) h1, scratch_after, h1, Finset.sum_congr rfl e, coe_sum, zero_add,
    bblk_apply m c t r f hf, hV.bias, bias_row_apply, ← Spec.coe_toReal_of_exists (hfin.hb (ix1 f)), ← EReal.coe_add]
  show _ = ((Spec.value (ax m c) (acw m c) (aidx m c) (arot m c) (asc m c) (ab m c) n (Spec.tileOf f) (Spec.rowIn f) : ℝ) : EReal)
  rw [hrow, ← Spec.blocks_eq_value, hcol]

/-- What a tile's last point writes back is its block of the common function. -/
theorem flushed_eq (t : Fin cfg0.N) (hfl : (cfg0.win 4).flush t = true) :
    (dats m 0 c).flushed 4 t
      = ((cfg0.win 4).blk t).view.read (Elt Ideal) (Spec.G (ax m c) (acw m c) (aidx m c) (arot m c) (asc m c) (ab m c)) := by
  have hN : cfg0.N = 64 := N_0
  have h1 : t.val % 8 = 7 := (flush0_4 t).mp hfl
  obtain ⟨-, -, -, -, -, -, -, -, -, -, h40, h41⟩ := idx_facts t
  rw [flushed4]
  funext j
  obtain ⟨n, r, rfl⟩ : ∃ (n r : Fin 512), (j : S512x512.Idx) = ix2 n r := ⟨j 0, j 1, eq_ix2 (n0 := 512) (n1 := 512) j⟩
  have hr := r.isLt
  show (outsAt0 m c t.val t.isLt).1 (ix2 n r)
    = Spec.G (ax m c) (acw m c) (aidx m c) (arot m c) (asc m c) (ab m c) (((cfg0.win 4).blk t).view.emb (ix2 n r))
  have hemb : ((cfg0.win 4).blk t).view.emb (ix2 n r) = ix2 n (⟨512 * (t.val / 8) + r.val, by omega⟩ : Fin 4096) := by
    funext a
    apply Fin.ext
    match a with
    | ⟨0, _⟩ => show win0_4.index t (0 : Fin 2) * 512 + 1 * n.val = n.val; rw [h40]; omega
    | ⟨1, _⟩ => show win0_4.index t (1 : Fin 2) * 512 + 1 * r.val = 512 * (t.val / 8) + r.val; rw [h41]; omega
  rw [hemb]
  exact out_value m c hV hfin t h1 n r _ rfl

end

/-- Every entry of the result lies in the block some tile's last point writes back. -/
theorem cover (i : S512x4096.Idx) : ∃ t : Fin cfg0.N, (cfg0.win 4).flush t = true ∧ i ∈ ((cfg0.win 4).blk t).view.set := by
  have hN : cfg0.N = 64 := N_0
  have hi0 : (i 0).val < 512 := (i 0).isLt
  have hi1 : (i 1).val < 4096 := (i 1).isLt
  have ht : 8 * ((i 1).val / 512) + 7 < cfg0.N := by omega
  obtain ⟨-, -, -, -, -, -, -, -, -, -, h40, h41⟩ := idx_facts ⟨8 * ((i 1).val / 512) + 7, ht⟩
  refine ⟨⟨8 * ((i 1).val / 512) + 7, ht⟩, (flush0_4 _).mpr (by show (8 * ((i 1).val / 512) + 7) % 8 = 7; omega), ?_⟩
  show i ∈ ((View.whole main_v46).slice (win0_4.rect ⟨8 * ((i 1).val / 512) + 7, ht⟩)).set
  rw [View.set_slice_whole, Rect.mem_set_unit]
  intro a
  match a with
  | ⟨0, _⟩ =>
    show win0_4.index ⟨8 * ((i 1).val / 512) + 7, ht⟩ (0 : Fin 2) * 512 ≤ (i 0).val
      ∧ (i 0).val < win0_4.index ⟨8 * ((i 1).val / 512) + 7, ht⟩ (0 : Fin 2) * 512 + 512
    rw [h40]; omega
  | ⟨1, _⟩ =>
    show win0_4.index ⟨8 * ((i 1).val / 512) + 7, ht⟩ (1 : Fin 2) * 512 ≤ (i 1).val
      ∧ (i 1).val < win0_4.index ⟨8 * ((i 1).val / 512) + 7, ht⟩ (1 : Fin 2) * 512 + 512
    rw [h41]
    show (8 * ((i 1).val / 512) + 7) / 8 * 512 ≤ (i 1).val ∧ (i 1).val < (8 * ((i 1).val / 512) + 7) / 8 * 512 + 512
    omega

/-- The result array after the run is the common function of the arguments. -/
theorem final (c : Dev nD) (hV : Found m c) (hfin : Spec.Finite (ax m c) (acw m c) (arot m c) (asc m c) (ab m c)) :
    (dats m 0 c).arrAt 4 cfg0.N = Spec.G (ax m c) (acw m c) (aidx m c) (arot m c) (asc m c) (ab m c) :=
  (dats m 0 c).arrAt_eq_of_cover 4 (Spec.G (ax m c) (acw m c) (aidx m c) (arot m c) (asc m c) (ab m c))
    (fun t hfl => flushed_eq m c hV hfin t hfl) cover

end Cert.KernelIdeal.RunValue

end
-- ==== Proof.FiniteInputs.lean ====
/-
  The precondition says every entry of the five float arrays is a real number.

  The printed precondition is a conjunction of five conjuncts, one per float array `a`: the reduction by
  `and`, over every axis, of the entrywise comparison `|a| < +∞`. Its value being 1 splits into the five
  reductions being 1; a reduction by `and` that came out 1 met a 1 at every entry; and an extended real
  whose absolute value `max a (-a)` lies strictly below `⊤` is neither `⊤` nor `⊥`, so it is the image of
  a real. The integer array of start indices carries no conjunct and none is needed.
-/
import proofs.«410746_j70274254897207_3_alg».proof.Pre_finite_inputs
import proofs.«410746_j70274254897207_3_alg».proof.Proof.Gen.Pre_finite_inputs
import proofs.«410746_j70274254897207_3_alg».proof.Proof.Spec
import Idealize.ShloMosaic.Lib.ReduceAll

noncomputable section

namespace Cert.FiniteInputs

open Idealize.ShloMosaic Cert.Pre_finite_inputs

/-- The shape with no axes has one index. -/
instance : Subsingleton S_.Idx := ⟨fun a b => funext fun d => d.elim0⟩

/-- The pattern of `+∞` denotes `⊤`. -/
theorem ofBits_inf : Ideal.ofBits .f32 0x7F800000#32 = (⊤ : EReal) := by
  simp [Ideal.ofBits, Ideal.ieee]

/-- An extended real whose absolute value is strictly below `⊤` is the image of a real. -/
theorem real_of_abs_lt_top (a : EReal) (h : Ideal.cmp .olt (max a (-a)) ⊤ = 1#1) : ∃ v : ℝ, a = (v : EReal) := by
  induction a using EReal.rec with
  | bot => simp [Ideal.cmp] at h
  | coe v => exact ⟨v, rfl⟩
  | top => simp [Ideal.cmp] at h

/-- One conjunct read back: if the reduction by `and` of `|a| < +∞` over every axis of `a` is 1, every entry
    of `a` is the image of a real. -/
theorem entries_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant (F := Ideal) S_ .f32 0x7F800000#32)))
        (constantI S_ 1 1#1) hr hu ValueIdx.ix0 = 1#1) :
    ∀ i, ∃ v : ℝ, a i = (v : EReal) := by
  intro i
  have e := Host.reduce_andi_all _ _ hr hu ValueIdx.ix0 h i
  refine real_of_abs_lt_top (a i) ?_
  rw [← ofBits_inf]
  exact e

/-- The precondition holding, every entry of the five float arrays is a real number. -/
theorem finite_of_pre (x0 : FVec Ideal Cert.Pre_finite_inputs.S512x4096 .f32) (x1 : FVec Ideal Cert.Pre_finite_inputs.S16384x4096 .f32) (x2 : IVec Cert.Pre_finite_inputs.S8x512x4 32) (x3 : FVec Ideal Cert.Pre_finite_inputs.S8x4096x4096 .f32) (x4 : FVec Ideal Cert.Pre_finite_inputs.S8 .f32) (x5 : FVec Ideal Cert.Pre_finite_inputs.S4096 .f32)
    (h : Cert.Pre_finite_inputs.fn (F := Ideal) x0 x1 x2 x3 x4 x5 = fun _ => 1#1) : Cert.Spec.Finite x0 x1 x3 x4 x5 := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨hx0, hx1⟩ := IntOp.andi_eq_one.1 h01
  exact ⟨entries_real x0 _ _ _ hx0, entries_real x1 _ _ _ hx1, entries_real x3 _ _ _ h2,
    entries_real x4 _ _ _ h3, entries_real x5 _ _ _ h4⟩

end Cert.FiniteInputs

end
-- ==== Proof.RefValue.lean ====
/-
  The reference program's result, read entry by entry, is the common real-valued function.

  With x : [512, 4096] the tokens, cw : [16384, 4096] the codeword table, idx : [8, 512, 4] the start
  indices, rot : [8, 4096, 4096] the rotations, sc : [8] the scales and b : [4096] the bias, the
  reference forms, for a tile t, a row r of the tile and a column d,

      q[t, r, d]  = (0 + Σ_k cw[row(idx[t, r, k]), d]) / 4          (the mean of the four gathered rows)
      p[t, r, e]  = (Σ_d q[t, r, d] · rot[t, d, e]) · sc[t]         (rotated and scaled)

  lays p out as the matrix w[512·t + r, e] = p[t, r, e], transposes it, and returns

      out[n, f] = Σ_e x[n, e] · w[f, e] + b[f].

  Column f = 512·t + r of the result belongs to tile t = f / 512 and row r = f % 512: flattening
  [8, 512, 4096] in row-major order to [4096, 4096] sends entry (t, r, e) to (512·t + r, e).
  When every float entry is a real number, each product, sum and the division by 4 is the image of
  the same operation on the real parts, so out[n, f] is the image of the real number
  Cert.Spec.value at (n, f / 512, f % 512).
-/
import proofs.«410746_j70274254897207_3_alg».proof.Proof.Gen.ReferenceIdeal.Read
import proofs.«410746_j70274254897207_3_alg».proof.Proof.Spec

noncomputable section

namespace Cert.RefValue

open Idealize.ShloMosaic Idealize.ShloMosaic.ValueIdx Cert.ReferenceIdeal Cert.ReferenceIdeal.Read
open Cert.Rows Cert.RealSums

/-! ## The start indices and the gathered rows -/

/-- The reference prepares a start index as both programs do: a negative one is moved up by the table's length. -/
theorem v4_at (x2 : IVec S8x512x4 32) (j : S8x512x4.Idx) :
    val_main_v4 (F := Ideal) x2 j = wrapNeg (x2 j) := by
  rw [val_main_v4_apply, val_main_v1_apply, val_main_v3_apply, val_main_v0_apply, val_main_v2_apply,
    val_main_c_apply, val_main_c_0_apply]
  rfl

/-- The trailing unit axis added to the start indices reads the same entry. -/
theorem idx5 (t : Fin 8) (r : Fin 512) (k : Fin 4) : idx_main_v5 (ix4 t r k (0 : Fin 1)) = ix3 t r k := by
  funext a
  match a with
  | ⟨0, _⟩ => rfl
  | ⟨1, _⟩ => rfl
  | ⟨2, _⟩ => rfl

theorem v5_at (x2 : IVec S8x512x4 32) (t : Fin 8) (r : Fin 512) (k : Fin 4) :
    val_main_v5 (F := Ideal) x2 (ix4 t r k (0 : Fin 1)) = wrapNeg (x2 (ix3 t r k)) := by
  rw [val_main_v5_apply, idx5, v4_at]

/-- Entry (t, r, k, e) of the gather is the table at the row start index (t, r, k) names, column e. -/
theorem v6_at (x1 : FVec Ideal S16384x4096 .f32) (x2 : IVec S8x512x4 32)
    (t : Fin 8) (r : Fin 512) (k : Fin 4) (e : Fin 4096) :
    val_main_v6 (F := Ideal) x1 x2 (ix4 t r k e) = x1 (ix2 (rowOf (wrapNeg (x2 (ix3 t r k)))) e) := by
  have h := gather4_apply Facts₀.gather_S16384x4096_S8x512x4x1_S8x512x4x4096_3_0_n_n_0_3_14096_wf
    x1 (val_main_v5 (F := Ideal) x2) t r k e
  rw [v5_at] at h
  exact h

/-- The sum over the four start indices runs over the third axis of the gather. -/
theorem idx7 (t : Fin 8) (r : Fin 512) (d : Fin 4096) (k : Fin 4) : idx_main_v7 (ix3 t r d) k = ix4 t r k d := by
  funext a
  match a with
  | ⟨0, _⟩ => rfl
  | ⟨1, _⟩ => rfl
  | ⟨2, _⟩ => rfl
  | ⟨3, _⟩ => rfl

theorem v7_at (x1 : FVec Ideal S16384x4096 .f32) (x2 : IVec S8x512x4 32) (t : Fin 8) (r : Fin 512) (d : Fin 4096) :
    val_main_v7 (F := Ideal) x1 x2 (ix3 t r d)
      = 0 + ∑ k : Fin 4, x1 (ix2 (rowOf (wrapNeg (x2 (ix3 t r k)))) d) := by
  rw [val_main_v7_apply, val_main_cst_apply, Ideal.ofBits_def, Ideal.ofBits_zero_f32]
  refine congrArg (_ + ·) (Finset.sum_congr rfl fun k _ => ?_)
  rw [idx7, v6_at]

/-! ## With a finite table: the mean of the four rows -/

section
variable (x1 : FVec Ideal S16384x4096 .f32) (x2 : IVec S8x512x4 32)
  (hcw : ∀ i, ∃ v : ℝ, x1 i = (v : EReal))
include hcw

/-- The sum of the four gathered rows, started from zero, is the image of the real sum. -/
theorem v7_real (t : Fin 8) (r : Fin 512) (d : Fin 4096) :
    val_main_v7 (F := Ideal) x1 x2 (ix3 t r d) = ((0 + ∑ k : Fin 4, Spec.code x1 x2 t r k d : ℝ) : EReal) := by
  have h : ∀ k : Fin 4, x1 (ix2 (rowOf (wrapNeg (x2 (ix3 t r k)))) d) = ((Spec.code x1 x2 t r k d : ℝ) : EReal) :=
    fun k => (Spec.coe_toReal_of_exists (hcw _)).symm
  rw [v7_at, Finset.sum_congr (s₁ := Finset.univ) rfl (fun k _ => h k), coe_sum, EReal.coe_add, EReal.coe_zero]

/-- Dividing by the constant 4.0 is dividing the real part by 4. -/
theorem v9_real (t : Fin 8) (r : Fin 512) (d : Fin 4096) :
    val_main_v9 (F := Ideal) x1 x2 (ix3 t r d)
      = (((0 + ∑ k : Fin 4, Spec.code x1 x2 t r k d) / 4 : ℝ) : EReal) := by
  rw [val_main_v9_apply, Ideal.hostDivf_def, val_main_v8_apply, val_main_cst_1_apply, Ideal.ofBits_def,
    Spec.ofBits_four, v7_real x1 x2 hcw, Ideal.div_coe (by norm_num : (4 : ℝ) ≠ 0), ← EReal.coe_mul]
  congr 1
  ring

end

/-! ## The rotation and the scale -/

/-- The batched contraction reads row (t, r) of the means along d … -/
theorem lidx10 (t : Fin 8) (r : Fin 512) (e d : Fin 4096) : lidx_main_v10 (ix3 t r e) d = ix3 t r d := by
  funext a
  match a with
  | ⟨0, _⟩ => rfl
  | ⟨1, _⟩ => rfl
  | ⟨2, _⟩ => rfl

/-- … and column e of tile t's rotation along d. -/
theorem ridx10 (t : Fin 8) (r : Fin 512) (e d : Fin 4096) : ridx_main_v10 (ix3 t r e) d = ix3 t d e := by
  funext a
  match a with
  | ⟨0, _⟩ => rfl
  | ⟨1, _⟩ => rfl
  | ⟨2, _⟩ => rfl

/-- The scale of tile t, broadcast over the tile. -/
theorem v12_at (x4 : FVec Ideal S8 .f32) (t : Fin 8) (r : Fin 512) (e : Fin 4096) :
    val_main_v12 (F := Ideal) x4 (ix3 t r e) = x4 (ix1 t) := by
  rw [val_main_v12_apply, val_main_v11_apply]
  exact congrArg x4 (funext fun a => match a with | ⟨0, _⟩ => rfl)

section
variable (x1 : FVec Ideal S16384x4096 .f32) (x2 : IVec S8x512x4 32) (x3 : FVec Ideal S8x4096x4096 .f32)
  (x4 : FVec Ideal S8 .f32)
  (hcw : ∀ i, ∃ v : ℝ, x1 i = (v : EReal)) (hrot : ∀ i, ∃ v : ℝ, x3 i = (v : EReal))
include hcw hrot

/-- The rotated mean: the image of the real contraction over d. -/
theorem v10_real (t : Fin 8) (r : Fin 512) (e : Fin 4096) :
    val_main_v10 (F := Ideal) x1 x2 x3 (ix3 t r e)
      = ((∑ d : Fin 4096, ((0 + ∑ k : Fin 4, Spec.code x1 x2 t r k d) / 4) * EReal.toReal (x3 (ix3 t d e)) : ℝ) : EReal) := by
  have e1 : ∀ d : Fin 4096,
      val_main_v9 (F := Ideal) x1 x2 (lidx_main_v10 (ix3 t r e) d) * x3 (ridx_main_v10 (ix3 t r e) d)
        = ((((0 + ∑ k : Fin 4, Spec.code x1 x2 t r k d) / 4 : ℝ)) : EReal) * ((EReal.toReal (x3 (ix3 t d e)) : ℝ) : EReal) := by
    intro d
    rw [lidx10, ridx10, v9_real x1 x2 hcw, Spec.coe_toReal_of_exists (hrot _)]
  rw [val_main_v10_apply, Finset.sum_congr (s₁ := Finset.univ) rfl (fun d _ => e1 d)]
  exact coe_sum_mul _ _ _

variable (hsc : ∀ i, ∃ v : ℝ, x4 i = (v : EReal))
include hsc

/-- Rotated and scaled. -/
theorem v13_real (t : Fin 8) (r : Fin 512) (e : Fin 4096) :
    val_main_v13 (F := Ideal) x1 x2 x3 x4 (ix3 t r e)
      = (((∑ d : Fin 4096, ((0 + ∑ k : Fin 4, Spec.code x1 x2 t r k d) / 4) * EReal.toReal (x3 (ix3 t d e)))
          * EReal.toReal (x4 (ix1 t)) : ℝ) : EReal) := by
  rw [val_main_v13_apply, Ideal.mulf_def, v10_real x1 x2 x3 hcw hrot, v12_at]
  exact (congrArg (_ * ·) (Spec.coe_toReal_of_exists (hsc _)).symm).trans (EReal.coe_mul _ _).symm

end

/-! ## The matrix of all tiles, transposed -/

/-- Entry (e, f) of the transposed matrix is entry (f / 512, f % 512, e) of the tiles: row-major
    flattening of [8, 512, 4096] to [4096, 4096] sends (t, r, e) to (512·t + r, e). -/
theorem idx15 (e f : Fin 4096) :
    idx_main_v14 (idx_main_v15 (ix2 e f)) = ix3 (Spec.tileOf f) (Spec.rowIn f) e := by
  funext a
  refine Fin.ext ?_
  have he := e.isLt
  have hf := f.isLt
  match a with
  | ⟨0, _⟩ => show (f.val * 4096 + e.val) / 2097152 = f.val / 512; omega
  | ⟨1, _⟩ => show (f.val * 4096 + e.val) / 4096 % 512 = f.val % 512; omega
  | ⟨2, _⟩ => show (f.val * 4096 + e.val) % 4096 = e.val; omega

theorem v15_at (x1 : FVec Ideal S16384x4096 .f32) (x2 : IVec S8x512x4 32) (x3 : FVec Ideal S8x4096x4096 .f32)
    (x4 : FVec Ideal S8 .f32) (e f : Fin 4096) :
    val_main_v15 (F := Ideal) x1 x2 x3 x4 (ix2 e f)
      = val_main_v13 (F := Ideal) x1 x2 x3 x4 (ix3 (Spec.tileOf f) (Spec.rowIn f) e) := by
  rw [val_main_v15_apply, val_main_v14_apply, idx15]

/-! ## The product with the tokens, and the bias -/

/-- The last contraction reads token row n along e … -/
theorem lidx16 (n : Fin 512) (f e : Fin 4096) : lidx_main_v16 (ix2 n f) e = ix2 n e := by
  funext a
  match a with
  | ⟨0, _⟩ => rfl
  | ⟨1, _⟩ => rfl

/-- … and column f of the transposed matrix along e. -/
theorem ridx16 (n : Fin 512) (f e : Fin 4096) : ridx_main_v16 (ix2 n f) e = ix2 e f := by
  funext a
  match a with
  | ⟨0, _⟩ => rfl
  | ⟨1, _⟩ => rfl

/-- The bias, broadcast over the rows. -/
theorem v18_at (x5 : FVec Ideal S4096 .f32) (n : Fin 512) (f : Fin 4096) :
    val_main_v18 (F := Ideal) x5 (ix2 n f) = x5 (ix1 f) := by
  rw [val_main_v18_apply, val_main_v17_apply]
  exact congrArg x5 (funext fun a => match a with | ⟨0, _⟩ => rfl)

/-- The reference program's result is the common function, when the float arrays are finite. -/
theorem reference_value (x0 : FVec Ideal S512x4096 .f32) (x1 : FVec Ideal S16384x4096 .f32) (x2 : IVec S8x512x4 32) (x3 : FVec Ideal S8x4096x4096 .f32) (x4 : FVec Ideal S8 .f32) (x5 : FVec Ideal S4096 .f32)
    (hfin : Cert.Spec.Finite x0 x1 x3 x4 x5) : val_main_v19 (F := Ideal) x0 x1 x2 x3 x4 x5 = Cert.Spec.G x0 x1 x2 x3 x4 x5 := by
  funext i
  obtain ⟨n, f, rfl⟩ : ∃ (n : Fin 512) (f : Fin 4096), i = ix2 n f := ⟨i 0, i 1, eq_ix2 i⟩
  have e1 : ∀ e : Fin 4096,
      x0 (lidx_main_v16 (ix2 n f) e) * val_main_v15 (F := Ideal) x1 x2 x3 x4 (ridx_main_v16 (ix2 n f) e)
        = ((EReal.toReal (x0 (ix2 n e)) : ℝ) : EReal)
          * ((((∑ d : Fin 4096, ((0 + ∑ k : Fin 4, Spec.code x1 x2 (Spec.tileOf f) (Spec.rowIn f) k d) / 4)
                * EReal.toReal (x3 (ix3 (Spec.tileOf f) d e))) * EReal.toReal (x4 (ix1 (Spec.tileOf f))) : ℝ)) : EReal) := by
    intro e
    rw [lidx16, ridx16, v15_at, v13_real x1 x2 x3 x4 hfin.hcw hfin.hrot hfin.hsc, Spec.coe_toReal_of_exists (hfin.hx _)]
  rw [val_main_v19_apply, Ideal.addf_def, val_main_v16_apply, v18_at,
    Finset.sum_congr (s₁ := Finset.univ) rfl (fun e _ => e1 e), coe_sum_mul]
  show _ = ((Spec.value x0 x1 x2 x3 x4 x5 n (Spec.tileOf f) (Spec.rowIn f) : ℝ) : EReal)
  unfold Spec.value
  rw [EReal.coe_add, Spec.col_tileOf_rowIn, Spec.coe_toReal_of_exists (hfin.hb _)]

end Cert.RefValue

end
-- ==== Proof.lean ====
/-
  A codebook-decoded linear layer: `out[n, 512·t + r] = Σ_e x[n, e] · W[512·t + r, e] + b[512·t + r]`, where row
  `r` of tile `t` of the weight is the mean of four gathered codeword rows, rotated by the tile's rotation and
  scaled by the tile's scale.

  The reference forms the mean `(0 + Σ_k cw[row_k, d]) / 4`, contracts it with `rot[t, d, e]` over `d`, scales, and
  contracts with the tokens over `e`. The kernel adds the four gathered rows, multiplies by `0.25` and by the
  scale on the host, and in its region contracts the tokens with the rotation first (over `e`), then with the
  decoded rows over `d`, 512 columns `d` at a time, accumulating the eight blocks of a tile in a carried
  accumulator that its first block zeroes and its last block stores, with the bias added, into the tile's 512
  columns of the result. The changes of float format are the identity at the ideal values.

  The two orders agree by distributivity and by exchanging the sums over `d` and `e`, laws of the reals that fail
  at the infinities of the extended reals: the proof reads the precondition (every float entry finite), writes
  every entry as the image of its real part (`Cert.Spec`), shows each program's result to be the image of one
  real expression (`Cert.KernelIdeal.RunValue.final`, `Cert.RefValue.reference_value`), and joins the two
  expressions over the reals (`Cert.Spec.blocks_eq_value`). A start index is read signed, moved up by the table's
  length when negative and clamped into the table by the gather, identically in both programs, so no condition
  on the indices is needed. The ideal pass rewrote nothing, so the kernel's idealization is its own text.
-/
import proofs.«410746_j70274254897207_3_alg».proof.Defs
import proofs.«410746_j70274254897207_3_alg».proof.Proof.Gen.Kernel
import proofs.«410746_j70274254897207_3_alg».proof.Proof.Gen.Kernel.Skeleton
import proofs.«410746_j70274254897207_3_alg».proof.Proof.Gen.Kernel.Launch
import proofs.«410746_j70274254897207_3_alg».proof.Proof.Gen.Kernel.Points
import proofs.«410746_j70274254897207_3_alg».proof.Proof.Gen.Kernel.Frame
import proofs.«410746_j70274254897207_3_alg».proof.Proof.Gen.KernelIdeal
import proofs.«410746_j70274254897207_3_alg».proof.Proof.Gen.KernelIdeal.Skeleton
import proofs.«410746_j70274254897207_3_alg».proof.Proof.Gen.KernelIdeal.Launch
import proofs.«410746_j70274254897207_3_alg».proof.Proof.Gen.KernelIdeal.Points
import proofs.«410746_j70274254897207_3_alg».proof.Proof.Gen.KernelIdeal.Frame
import proofs.«410746_j70274254897207_3_alg».proof.Proof.Gen.ReferenceIdeal
import proofs.«410746_j70274254897207_3_alg».proof.Proof.Gen.KernelIdeal.Value
import proofs.«410746_j70274254897207_3_alg».proof.Proof.Gen.ReferenceIdeal.Run
import proofs.«410746_j70274254897207_3_alg».proof.Proof.Gen.ReferenceIdeal.Read
import proofs.«410746_j70274254897207_3_alg».proof.Proof.Gen.Pre_finite_inputs
import proofs.«410746_j70274254897207_3_alg».proof.Proof.KernelHost
import proofs.«410746_j70274254897207_3_alg».proof.Proof.KernelValue
import proofs.«410746_j70274254897207_3_alg».proof.Proof.FiniteInputs
import proofs.«410746_j70274254897207_3_alg».proof.Proof.RefValue
import Idealize.ShloMosaic.Adequacy
import Idealize.ShloMosaic.Init

noncomputable section

namespace Cert.Proof

open Idealize.ShloMosaic Idealize.SL.Sem

/-- The three frames: the kernel's two are its generated frame certificate; the reference's is its run with the
    result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From finite inputs that agree, both programs end with the common real-valued function of the arguments. -/
theorem algebraic : Cert.algebraic_KernelIdeal_ReferenceIdeal := by
  intro m ρ m' ρ' hpre hagree
  have hfin : ∀ c, Cert.Spec.Finite (Cert.KernelIdeal.RunValue.ax m c) (Cert.KernelIdeal.RunValue.acw m c)
      (Cert.KernelIdeal.RunValue.arot m c) (Cert.KernelIdeal.RunValue.asc m c) (Cert.KernelIdeal.RunValue.ab m c) :=
    fun c => Cert.FiniteInputs.finite_of_pre _ _ _ _ _ _ (hpre c)
  have hfound : ∀ c, Cert.KernelIdeal.RunValue.Found m c := fun c =>
    ⟨Cert.KernelIdeal.Host.V_main_v43 m c, Cert.KernelIdeal.Host.V_main_v44 m c, Cert.KernelIdeal.Host.V_main_v45 m c⟩
  refine ⟨fun c => Cert.Spec.G (Cert.KernelIdeal.RunValue.ax m c) (Cert.KernelIdeal.RunValue.acw m c)
      (Cert.KernelIdeal.RunValue.aidx m c) (Cert.KernelIdeal.RunValue.arot m c) (Cert.KernelIdeal.RunValue.asc m c)
      (Cert.KernelIdeal.RunValue.ab m c), ?_, ?_⟩
  · exact (θ_run Cert.KernelIdeal.defs _ _).mono
      (fun r h c => ⟨(h c).1.trans (Cert.KernelIdeal.RunValue.final m c (hfound c) (hfin c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, (hagree c).1, (hagree c).2.1, (hagree c).2.2.1, (hagree c).2.2.2.1,
      (hagree c).2.2.2.2.1, (hagree c).2.2.2.2.2]
    exact Cert.RefValue.reference_value _ _ _ _ _ _ (hfin c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
